-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S128 : Shape := ⟨1, ![128]⟩
abbrev S2x800000 : Shape := ⟨2, ![2, 800000]⟩
abbrev S2x1600000 : Shape := ⟨2, ![2, 1600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg4 : FVec F S128 .f32) (main_arg5 : IVec S2x800000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x800000 32 := broadcastInDim S2x800000 ![] bcast_S_S2x800000 main_c_8
  let main_v25 : IVec S2x800000 1 := cmpi .sge main_arg5 main_v24
  let main_c_9 : IVec S_ 32 := constantI S_ 32 50000#32
  let main_v26 : IVec S2x800000 32 := broadcastInDim S2x800000 ![] bcast_S_S2x800000 main_c_9
  let main_v27 : IVec S2x800000 1 := cmpi .slt main_arg5 main_v26
  let main_v28 : IVec S2x800000 1 := andi main_v25 main_v27
  let main_c_10 : IVec S_ 1 := constantI S_ 1 1#1
  let main_v29 : IVec S_ 1 := (fun x v => Host.reduce IntOp.andi x v reducesTo_S2x800000_S_d0_1 h_S_) main_v28 main_c_10
  let main_v30 : IVec S_ 1 := andi main_v23 main_v29
  main_v30

def fn {F : FTy → Type} [FloatOps F] (main_arg0 : FVec F S50000x256 .f32) (main_arg1 : FVec F S128x256 .f32) (main_arg2 : FVec F S128 .f32) (main_arg3 : FVec F S128x256 .f32) (main_arg4 : FVec F S128 .f32) (main_arg5 : IVec S2x800000 32) (main_arg6 : IVec S2x1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_v13 main_v16
-- ==== Kernel.lean ====
abbrev S50000x256 : Shape := ⟨2, ![50000, 256]⟩
abbrev S128x256 : Shape := ⟨2, ![128, 256]⟩
abbrev S128 : Shape := ⟨1, ![128]⟩
abbrev S2x800000 : Shape := ⟨2, ![2, 800000]⟩
abbrev S2x1600000 : Shape := ⟨2, ![2, 1600000]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S6400x128 : Shape := ⟨2, ![6400, 128]⟩
abbrev S6400x1 : Shape := ⟨2, ![6400, 1]⟩
abbrev S6400 : Shape := ⟨1, ![6400]⟩
abbrev S800000x2 : Shape := ⟨2, ![800000, 2]⟩
abbrev S1600000 : Shape := ⟨1, ![1600000]⟩
abbrev S1x1600000 : Shape := ⟨2, ![1, 1600000]⟩
abbrev S50000 : Shape := ⟨1, ![50000]⟩
abbrev S1600000x1 : Shape := ⟨2, ![1600000, 1]⟩

abbrev nBuf : Space → Nat
  | .hbm => 117
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S2x800000, .i32⟩
  | .hbm, ⟨6, _⟩ => ⟨S2x1600000, .i32⟩
  | .hbm, ⟨7, _⟩ => ⟨S1x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x128, .f32⟩
  | .hbm, ⟨57, _⟩ => ⟨S800000x128, .i1⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S1, .i32⟩
  | .hbm, ⟨70, _⟩ => ⟨S_, .i32⟩
  | .hbm, ⟨71, _⟩ => ⟨S800000x1, .i32⟩
  | .hbm, ⟨72, _⟩ => ⟨S800000x1, .i1⟩
  | .hbm, ⟨73, _⟩ => ⟨S1x1, .i32⟩
  | .hbm, ⟨74, _⟩ => ⟨S800000x1, .i32⟩
  | .hbm, ⟨75, _⟩ => ⟨S800000x1, .i1⟩
  | .hbm, ⟨76, _⟩ => ⟨S800000x1, .i1⟩
  | .hbm, ⟨77, _⟩ => ⟨S_, .i1⟩
  | .hbm, ⟨78, _⟩ => ⟨S800000, .i1⟩
  | .hbm, ⟨79, _⟩ => ⟨S800000x128, .f32⟩
  | .hbm, ⟨80, _⟩ => ⟨S800000x128, .i1⟩
  | .hbm, ⟨81, _⟩ => ⟨S_, .f32⟩
  | .hbm, ⟨82, _⟩ => ⟨S800000x128, .f32⟩
  | .hbm, ⟨83, _⟩ => ⟨S800000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S1, .i32⟩
  | .hbm, ⟨93, _⟩ => ⟨S_, .i32⟩
  | .hbm, ⟨94, _⟩ => ⟨S800000x1, .i32⟩
  | .hbm, ⟨95, _⟩ => ⟨S800000x1, .i1⟩
  | .hbm, ⟨96, _⟩ => ⟨S1x1, .i32⟩
  | .hbm, ⟨97, _⟩ => ⟨S800000x1, .i32⟩
  | .hbm, ⟨98, _⟩ => ⟨S800000x1, .i1⟩
  | .hbm, ⟨99, _⟩ => ⟨S800000x1, .i1⟩
  | .hbm, ⟨100, _⟩ => ⟨S_, .i1⟩
  | .hbm, ⟨101, _⟩ => ⟨S800000, .i1⟩
  | .hbm, ⟨102, _⟩ => ⟨S800000x128, .f32⟩
  | .hbm, ⟨103, _⟩ => ⟨S800000x128, .i1⟩
  | .hbm, ⟨104, _⟩ => ⟨S_, .f32⟩
  | .hbm, ⟨105, _⟩ => ⟨S800000x128, .f32⟩
  | .hbm, ⟨106, _⟩ => ⟨S800000x128, .f32⟩
  | .hbm, ⟨107, _⟩ => ⟨S800000x1, .f32⟩
  | .hbm, ⟨108, _⟩ => ⟨S800000, .f32⟩
  | .hbm, ⟨109, _⟩ => ⟨S800000x2, .f32⟩
  | .hbm, ⟨110, _⟩ => ⟨S1600000, .f32⟩
  | .hbm, ⟨111, _⟩ => ⟨S1x1600000, .i32⟩
  | .hbm, ⟨112, _⟩ => ⟨S1600000, .i32⟩
  | .hbm, ⟨113, _⟩ => ⟨S_, .f32⟩
  | .hbm, ⟨114, _⟩ => ⟨S50000, .f32⟩
  | .hbm, ⟨115, _⟩ => ⟨S1600000x1, .i32⟩
  | .hbm, ⟨116, _⟩ => ⟨S50000, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S1x128, .f32⟩
  | .local _ .vmem, ⟨4, _⟩ => ⟨S128x256, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S6400x128, .f32⟩
  | .local _ .vmem, ⟨11, _⟩ => ⟨S6400x128, .f32⟩
  | .local _ .vmem, ⟨12, _⟩ => ⟨S6400x128, .f32⟩
  | .local _ .vmem, ⟨13, _⟩ => ⟨S6400x128, .f32⟩
  | .local _ .vmem, ⟨14, _⟩ => ⟨S6400x128, .f32⟩
  | .local _ .vmem, ⟨15, _⟩ => ⟨S6400x128, .f32⟩
  | .local _ .vmem, ⟨16, _⟩ => ⟨S6400x128, .f32⟩
  | .local _ .vmem, ⟨17, _⟩ => ⟨S6400x128, .f32⟩
  | .local _ .vmem, ⟨18, _⟩ => ⟨S6400x1, .f32⟩
  | .local _ .vmem, ⟨19, _⟩ => ⟨S6400x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v7 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v9 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_cst : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6400x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  reduces_S6400x128_S6400 : S6400x128.Reduces [1] S6400
  shapeCasts_S6400_S6400x1 : S6400.ShapeCasts S6400x1
  inb_S6400x1_S6400x1_0_0 : ∀ a, (![0, 0] : Fin 2 → Nat) a + S6400x1.size a ≤ S6400x1.size a
  h_S6400x1 : 0 < S6400x1.numel
  shapeCasts_S800000x1_S800000 : S800000x1.ShapeCasts S800000
  bcast_S800000_S800000x2_0 : S800000.BroadcastsInDim S800000x2 (![0] : Fin 1 → Fin S800000x2.rank)
  shapeCasts_S800000x2_S1600000 : S800000x2.ShapeCasts S1600000
  slices_S2x1600000_S1x1600000_1_0 : S2x1600000.Slices ![1, 0] S1x1600000
  shapeCasts_S1x1600000_S1600000 : S1x1600000.ShapeCasts S1600000
  bcast_S_S50000 : S_.BroadcastsInDim S50000 (![] : Fin 0 → Fin S50000.rank)
  bcast_S1600000_S1600000x1_0 : S1600000.BroadcastsInDim S1600000x1 (![0] : Fin 1 → Fin S1600000x1.rank)
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .f32 = 32 ∨ (Rect.block (s := S800000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x128.size a ≤ S800000x128.size a
  hwx1_3 : ∀ i : grid1.Coords, EltTy.bits .f32 = 32 ∨ (Rect.block (s := S800000x128) S6400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x1.size a ≤ S800000x1.size a
  hwx1_4 : ∀ i : grid1.Coords, EltTy.bits .f32 = 32 ∨ (Rect.block (s := S800000x1) S6400x1.size (cc1_transform_4 i) (hinb1_4 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S6400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S6400x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S128x256 : Shape := ⟨2, ![128, 256]⟩
abbrev S128 : Shape := ⟨1, ![128]⟩
abbrev S2x800000 : Shape := ⟨2, ![2, 800000]⟩
abbrev S2x1600000 : Shape := ⟨2, ![2, 1600000]⟩
abbrev S256x128 : Shape := ⟨2, ![256, 128]⟩
abbrev S50000x128 : Shape := ⟨2, ![50000, 128]⟩
abbrev S1x128 : Shape := ⟨2, ![1, 128]⟩
abbrev S50000x8x16 : Shape := ⟨3, ![50000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x2 : Shape := ⟨2, ![800000, 2]⟩
abbrev S1600000 : Shape := ⟨1, ![1600000]⟩
abbrev S1x1600000 : Shape := ⟨2, ![1, 1600000]⟩
abbrev S50000 : Shape := ⟨1, ![50000]⟩
abbrev S1600000x1 : Shape := ⟨2, ![1600000, 1]⟩

abbrev nBuf : Space → Nat
  | .hbm => 81
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S2x800000, .i32⟩
  | .hbm, ⟨6, _⟩ => ⟨S2x1600000, .i32⟩
  | .hbm, ⟨7, _⟩ => ⟨S256x128, .f32⟩
  | .hbm, ⟨8, _⟩ => ⟨S50000x128, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S50000x8x16, .f32⟩
  | .hbm, ⟨13, _⟩ => ⟨S256x128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S50000x8x16, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x8x16, .f32⟩
  | .hbm, ⟨59, _⟩ => ⟨S800000x8x16, .f32⟩
  | .hbm, ⟨60, _⟩ => ⟨S800000x8x16, .f32⟩
  | .hbm, ⟨61, _⟩ => ⟨S800000x8x16, .f32⟩
  | .hbm, ⟨62, _⟩ => ⟨S_, .f32⟩
  | .hbm, ⟨63, _⟩ => ⟨S800000x8, .f32⟩
  | .hbm, ⟨64, _⟩ => ⟨S_, .f32⟩
  | .hbm, ⟨65, _⟩ => ⟨S800000x8, .f32⟩
  | .hbm, ⟨66, _⟩ => ⟨S800000x8, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S800000, .f32⟩
  | .hbm, ⟨71, _⟩ => ⟨S800000, .f32⟩
  | .hbm, ⟨72, _⟩ => ⟨S800000, .f32⟩
  | .hbm, ⟨73, _⟩ => ⟨S800000x2, .f32⟩
  | .hbm, ⟨74, _⟩ => ⟨S1600000, .f32⟩
  | .hbm, ⟨75, _⟩ => ⟨S1x1600000, .i32⟩
  | .hbm, ⟨76, _⟩ => ⟨S1600000, .i32⟩
  | .hbm, ⟨77, _⟩ => ⟨S_, .f32⟩
  | .hbm, ⟨78, _⟩ => ⟨S50000, .f32⟩
  | .hbm, ⟨79, _⟩ => ⟨S1600000x1, .i32⟩
  | .hbm, ⟨80, _⟩ => ⟨S50000, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S_S800000x8 : S_.BroadcastsInDim S800000x8 (![] : Fin 0 → Fin S800000x8.rank)
  reducesTo_S800000x8_S800000_d1 : S800000x8.ReducesTo [1] S800000
  bcast_S800000_S800000x2_0 : S800000.BroadcastsInDim S800000x2 (![0] : Fin 1 → Fin S800000x2.rank)
  shapeCasts_S800000x2_S1600000 : S800000x2.ShapeCasts S1600000
  slices_S2x1600000_S1x1600000_1_0 : S2x1600000.Slices ![1, 0] S1x1600000
  shapeCasts_S1x1600000_S1600000 : S1x1600000.ShapeCasts S1600000
  bcast_S_S50000 : S_.BroadcastsInDim S50000 (![] : Fin 0 → Fin S50000.rank)
  bcast_S1600000_S1600000x1_0 : S1600000.BroadcastsInDim S1600000x1 (![0] : Fin 1 → Fin S1600000x1.rank)
  dot_S50000x256_S256x128_S50000x128_1_0_0_1_n_n_wf : DotDims.WF S50000x256 S256x128 S50000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000_S1600000x1_S1600000_n_0_0_1_wf : ScatterDims.WF S50000 S1600000x1 S1600000 [] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Spec.lean ====
/- The mathematics both programs compute, as plain functions over the extended reals, and the one
   algebraic law that joins them.

   Nodes carry feature rows x[n, ·]; two linear maps give q[n, a] = Σ_d x[n, d]·Wq[a, d] + bq[a] and
   k likewise.  An edge e = (s, t) scores exp of a scaled sum over the 128 attention coordinates of
   q[s, a]·k[t, a] + q[t, a]·k[s, a].  One program sums the 128 coordinates at once and scales by 1/16;
   the other groups them in 8 heads of 16, halves each head's sum, adds the heads and divides by 8.
   On finite reals the two agree: (Σ_h ½·Σ_j t(16h + j)) / 8 = (Σ_a t a)·(1/16). -/
import Idealize.ShloMosaic.PureOps.Ideal
import Idealize.ShloMosaic.PureOps.Ideal.Laws
import Idealize.ShloMosaic.Lib.ValueIdx
import Mathlib.Algebra.BigOperators.Fin
import Mathlib.Data.EReal.Basic
import Mathlib.Data.EReal.Inv
import Mathlib.Logic.Equiv.Fin.Basic
import Mathlib.Tactic.Ring
import Mathlib.Tactic.NormNum

noncomputable section

namespace Cert.Spec

open Idealize.ShloMosaic Idealize.ShloMosaic.ValueIdx

/-- An array of extended reals all of whose entries are real numbers. -/
def IsReal {ι : Type} (f : ι → EReal) : Prop := ∀ i, ∃ r : ℝ, f i = (r : EReal)

/-- The linear map's entry (n, a): the row x[n, ·] against the row W[a, ·], plus the bias b[a]. -/
def projAt (x : (⟨2, ![50000, 256]⟩ : Shape).Idx → EReal) (W : (⟨2, ![128, 256]⟩ : Shape).Idx → EReal)
    (b : (⟨1, ![128]⟩ : Shape).Idx → EReal) (n : Fin 50000) (a : Fin 128) : EReal :=
  (∑ d : Fin 256, x (ix2 n d) * W (ix2 a d)) + b (ix1 a)

/-- The projected array [50000, 128]. -/
def proj (x : (⟨2, ![50000, 256]⟩ : Shape).Idx → EReal) (W : (⟨2, ![128, 256]⟩ : Shape).Idx → EReal)
    (b : (⟨1, ![128]⟩ : Shape).Idx → EReal) : (⟨2, ![50000, 128]⟩ : Shape).Idx → EReal :=
  fun i => projAt x W b ⟨(i 0).val, idx2_lt0 i⟩ ⟨(i 1).val, idx2_lt1 i⟩

theorem proj_apply (x : (⟨2, ![50000, 256]⟩ : Shape).Idx → EReal) (W : (⟨2, ![128, 256]⟩ : Shape).Idx → EReal)
    (b : (⟨1, ![128]⟩ : Shape).Idx → EReal) (n : Fin 50000) (a : Fin 128) :
    proj x W b (ix2 n a) = projAt x W b n a := rfl

/-- A node index word read as a row number: signed, clamped into [0, 49999]. -/
def rowOf (w : BitVec 32) : Fin 50000 := ⟨min w.toInt.toNat 49999, by omega⟩

/-- The edge table's words all name a node: 0 ≤ word < 50000, read signed. -/
def InRange (E : (⟨2, ![2, 800000]⟩ : Shape).Idx → BitVec 32) : Prop := ∀ j, 0 ≤ (E j).toInt ∧ (E j).toInt < 50000

/-- Edge e's source word (row 0 of the edge table) and target word (row 1). -/
def srcW (E : (⟨2, ![2, 800000]⟩ : Shape).Idx → BitVec 32) (e : Fin 800000) : BitVec 32 := E (ix2 0 e)
def dstW (E : (⟨2, ![2, 800000]⟩ : Shape).Idx → BitVec 32) (e : Fin 800000) : BitVec 32 := E (ix2 1 e)

/-- One edge's symmetric term at attention coordinate a: q[s, a]·k[t, a] + q[t, a]·k[s, a]. -/
def pairAt (Q K : (⟨2, ![50000, 128]⟩ : Shape).Idx → EReal) (s t : Fin 50000) (a : Fin 128) : EReal :=
  Q (ix2 s a) * K (ix2 t a) + Q (ix2 t a) * K (ix2 s a)

/-- The edge score with all 128 coordinates summed at once and scaled by the word 0x3D800000 (1/16). -/
def scoreFlat (Q K : (⟨2, ![50000, 128]⟩ : Shape).Idx → EReal) (s t : Fin 50000) : EReal :=
  Ideal.exp ((∑ a : Fin 128, pairAt Q K s t a) * Ideal.ofBits .f32 0x3D800000#32)

/-- The coordinate 16h + j of head h. -/
def headCoord (h : Fin 8) (j : Fin 16) : Fin 128 := ⟨16 * h.val + j.val, by omega⟩

/-- The edge score by heads: per head a sum of 16 from zero, halved (0x3F000000), the 8 heads summed from zero, divided by
    8 (0x41000000). -/
def scoreHeads (Q K : (⟨2, ![50000, 128]⟩ : Shape).Idx → EReal) (s t : Fin 50000) : EReal :=
  Ideal.exp (Ideal.div
    (Ideal.ofBits .f32 0x00000000#32 + ∑ h : Fin 8, Ideal.ofBits .f32 0x3F000000#32 *
      (Ideal.ofBits .f32 0x00000000#32 + ∑ j : Fin 16, pairAt Q K s t (headCoord h j)))
    (Ideal.ofBits .f32 0x41000000#32))

/-- Edge e's score from the four gathered row tables [800000, 128] (source q, target k, target q, source k). -/
def scoreRow (qi kj qj ki : (⟨2, ![800000, 128]⟩ : Shape).Idx → EReal) (e : Fin 800000) : EReal :=
  Ideal.exp ((∑ a : Fin 128, (qi (ix2 e a) * kj (ix2 e a) + qj (ix2 e a) * ki (ix2 e a))) * Ideal.ofBits .f32 0x3D800000#32)

/-- The per-edge scores [800000], flat form. -/
def diagFlat (x : (⟨2, ![50000, 256]⟩ : Shape).Idx → EReal) (Wq : (⟨2, ![128, 256]⟩ : Shape).Idx → EReal)
    (bq : (⟨1, ![128]⟩ : Shape).Idx → EReal) (Wk : (⟨2, ![128, 256]⟩ : Shape).Idx → EReal) (bk : (⟨1, ![128]⟩ : Shape).Idx → EReal)
    (E : (⟨2, ![2, 800000]⟩ : Shape).Idx → BitVec 32) : (⟨1, ![800000]⟩ : Shape).Idx → EReal :=
  fun i => scoreFlat (proj x Wq bq) (proj x Wk bk) (rowOf (srcW E (i 0))) (rowOf (dstW E (i 0)))

/-- The per-edge scores [800000], by heads. -/
def diagHeads (x : (⟨2, ![50000, 256]⟩ : Shape).Idx → EReal) (Wq : (⟨2, ![128, 256]⟩ : Shape).Idx → EReal)
    (bq : (⟨1, ![128]⟩ : Shape).Idx → EReal) (Wk : (⟨2, ![128, 256]⟩ : Shape).Idx → EReal) (bk : (⟨1, ![128]⟩ : Shape).Idx → EReal)
    (E : (⟨2, ![2, 800000]⟩ : Shape).Idx → BitVec 32) : (⟨1, ![800000]⟩ : Shape).Idx → EReal :=
  fun i => scoreHeads (proj x Wq bq) (proj x Wk bk) (rowOf (srcW E (i 0))) (rowOf (dstW E (i 0)))

/-! ## The three literals -/

/-- The word 0x3D800000 is 1/16. -/
theorem ofBits_sixteenth : Ideal.ofBits .f32 0x3D800000#32 = ((1 / 16 : ℝ) : EReal) := by
  simp [Ideal.ofBits, Ideal.ieee]
  rw [← EReal.coe_mul]; congr 1; norm_num

/-- The word 0x3F000000 is 1/2. -/
theorem ofBits_half : Ideal.ofBits .f32 0x3F000000#32 = ((1 / 2 : ℝ) : EReal) := by
  simp [Ideal.ofBits, Ideal.ieee]
  rw [← EReal.coe_mul]; congr 1; norm_num

/-- The word 0x41000000 is 8. -/
theorem ofBits_eight : Ideal.ofBits .f32 0x41000000#32 = ((8 : ℝ) : EReal) := by
  simp [Ideal.ofBits, Ideal.ieee]
  rw [← EReal.coe_mul]; congr 1; norm_num

/-! ## The law -/

/-- A finite sum of reals, embedded, is the sum of the embedded terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The 128 coordinates are the 8 heads' 16 coordinates each: a = 16h + j. -/
theorem sum_heads (f : Fin 128 → ℝ) : ∑ a : Fin 128, f a = ∑ h : Fin 8, ∑ j : Fin 16, f (headCoord h j) := by
  rw [← Fintype.sum_prod_type']
  refine ((Equiv.sum_comp (finProdFinEquiv : Fin 8 × Fin 16 ≃ Fin 128) f).symm.trans ?_)
  refine Finset.sum_congr rfl fun x _ => congrArg f (Fin.ext ?_)
  show x.2.val + 16 * x.1.val = 16 * x.1.val + x.2.val
  omega

/-- On reals: (Σ_h ½·Σ_j p(16h + j)) / 8 = (Σ_a p a)·(1/16), the zeros the sums start from adding nothing. -/
theorem heads_law (p : Fin 128 → ℝ) :
    Ideal.div (Ideal.ofBits .f32 0x00000000#32 + ∑ h : Fin 8, Ideal.ofBits .f32 0x3F000000#32 *
        (Ideal.ofBits .f32 0x00000000#32 + ∑ j : Fin 16, ((p (headCoord h j) : ℝ) : EReal)))
      (Ideal.ofBits .f32 0x41000000#32)
    = (∑ a : Fin 128, ((p a : ℝ) : EReal)) * Ideal.ofBits .f32 0x3D800000#32 := by
  rw [ofBits_sixteenth, ofBits_half, ofBits_eight, Ideal.ofBits_zero_f32]
  simp only [zero_add, ← coe_sum, ← EReal.coe_mul]
  unfold Ideal.div
  rw [if_neg (by rw [EReal.coe_eq_zero]; norm_num), ← EReal.coe_inv, ← EReal.coe_mul]
  congr 1
  rw [sum_heads, Finset.sum_mul, Finset.sum_mul]
  refine Finset.sum_congr rfl fun h _ => ?_
  ring

/-- A projection of real arrays is real. -/
theorem proj_isReal {x : (⟨2, ![50000, 256]⟩ : Shape).Idx → EReal} {W : (⟨2, ![128, 256]⟩ : Shape).Idx → EReal}
    {b : (⟨1, ![128]⟩ : Shape).Idx → EReal} (hx : IsReal x) (hW : IsReal W) (hb : IsReal b) : IsReal (proj x W b) := by
  choose xr hxr using hx
  choose wr hwr using hW
  choose br hbr using hb
  intro i
  refine ⟨(∑ d : Fin 256, xr (ix2 ⟨(i 0).val, idx2_lt0 i⟩ d) * wr (ix2 ⟨(i 1).val, idx2_lt1 i⟩ d)) + br (ix1 ⟨(i 1).val, idx2_lt1 i⟩), ?_⟩
  unfold proj projAt
  rw [EReal.coe_add, coe_sum]
  simp only [hxr, hwr, hbr, EReal.coe_mul]

/-- On real arrays the score by heads is the flat score. -/
theorem scoreHeads_eq_scoreFlat {Q K : (⟨2, ![50000, 128]⟩ : Shape).Idx → EReal} (hQ : IsReal Q) (hK : IsReal K)
    (s t : Fin 50000) : scoreHeads Q K s t = scoreFlat Q K s t := by
  choose q hq using hQ
  choose k hk using hK
  have hp : ∀ a : Fin 128, pairAt Q K s t a
      = ((q (ix2 s a) * k (ix2 t a) + q (ix2 t a) * k (ix2 s a) : ℝ) : EReal) := fun a => by
    unfold pairAt; rw [hq, hk, hq, hk, EReal.coe_add, EReal.coe_mul, EReal.coe_mul]
  unfold scoreHeads scoreFlat
  simp only [hp]
  exact congrArg Ideal.exp (heads_law fun a => q (ix2 s a) * k (ix2 t a) + q (ix2 t a) * k (ix2 s a))

theorem diagHeads_eq_diagFlat {x : (⟨2, ![50000, 256]⟩ : Shape).Idx → EReal} {Wq Wk : (⟨2, ![128, 256]⟩ : Shape).Idx → EReal}
    {bq bk : (⟨1, ![128]⟩ : Shape).Idx → EReal} (hx : IsReal x) (hWq : IsReal Wq) (hbq : IsReal bq) (hWk : IsReal Wk) (hbk : IsReal bk)
    (E : (⟨2, ![2, 800000]⟩ : Shape).Idx → BitVec 32) : diagHeads x Wq bq Wk bk E = diagFlat x Wq bq Wk bk E :=
  funext fun i => scoreHeads_eq_scoreFlat (proj_isReal hx hWq hbq) (proj_isReal hx hWk hbk) _ _

end Cert.Spec

end
-- ==== Proof.Tail.lean ====
/- The last stretch of both programs is the same: each edge score is written twice in a row (a, a, b, b, …), and the
   1,600,000 values are added into 50,000 node slots at the slots the second row of the second index table names.
   Stated once per program over that program's own shape facts; the two are the same function. -/
import proofs.«421865_j65403761983980_1_alg».proof.KernelIdeal
import proofs.«421865_j65403761983980_1_alg».proof.ReferenceIdeal
import Idealize.ShloMosaic.PureOps.Ideal

noncomputable section

namespace Cert.Tail

open Idealize.ShloMosaic

/-- Scores to node sums, over the kernel program's shape facts. -/
def tailK [Cert.KernelIdeal.Facts] (d : Cert.KernelIdeal.S800000.Idx → EReal) (x6 : Cert.KernelIdeal.S2x1600000.Idx → BitVec 32) :
    Cert.KernelIdeal.S50000.Idx → EReal :=
  open Cert.KernelIdeal Cert.KernelIdeal.Facts₀ in
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0
      (shapeCast S1600000 (extractStridedSlice S1x1600000 ![1, 0] x6 slices_S2x1600000_S1x1600000_1_0) shapeCasts_S1x1600000_S1600000))
    (shapeCast S1600000 (broadcastInDim S800000x2 ![0] bcast_S800000_S800000x2_0 d) shapeCasts_S800000x2_S1600000)

/-- The same over the reference program's shape facts. -/
def tailR [Cert.ReferenceIdeal.Facts] (d : Cert.ReferenceIdeal.S800000.Idx → EReal) (x6 : Cert.ReferenceIdeal.S2x1600000.Idx → BitVec 32) :
    Cert.ReferenceIdeal.S50000.Idx → EReal :=
  open Cert.ReferenceIdeal Cert.ReferenceIdeal.Facts₀ in
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0
      (shapeCast S1600000 (extractStridedSlice S1x1600000 ![1, 0] x6 slices_S2x1600000_S1x1600000_1_0) shapeCasts_S1x1600000_S1600000))
    (shapeCast S1600000 (broadcastInDim S800000x2 ![0] bcast_S800000_S800000x2_0 d) shapeCasts_S800000x2_S1600000)

/-- The two are one function: the shape facts are propositions. -/
theorem tailR_eq_tailK [Cert.KernelIdeal.Facts] [Cert.ReferenceIdeal.Facts] (d : Cert.KernelIdeal.S800000.Idx → EReal)
    (x6 : Cert.KernelIdeal.S2x1600000.Idx → BitVec 32) : tailR d x6 = tailK d x6 := rfl

end Cert.Tail

end
-- ==== Proof.KRegion0.lean ====
/- The first launch, read as values: over ten blocks of 5000 rows it writes q = x·Wqᵀ + bq and k = x·Wkᵀ + bk.
   Each block of an output is the same function of the array index, the blocks tile the array, so each output array
   ends as the projection of the arrays the launch found. -/
import proofs.«421865_j65403761983980_1_alg».proof.Proof.Gen.KernelIdeal.Frame
import proofs.«421865_j65403761983980_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A bias kept as a [1, 128] row, read as the [128] vector it is. -/
def biasRow (b : S1x128.Idx → EReal) : S128.Idx → EReal := fun k => b (ix2 (0 : Fin 1) (⟨(k 0).val, (k 0).isLt⟩ : Fin 128))

/-! ## One block's product at an index

The block product contracts the block's second axis with the transposed weights' first; at output index (p, a) and
contraction position d the left operand is read at (p, d) and the right at (d, a). -/

private theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem lhs_contr (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem rhs_contr (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A block of rows against the transposed weights, into zero: entry (p, a) is the row p of the block against the row a
    of the weights. -/
private theorem blockProduct_apply (x : FVec Ideal S5000x256 .bf16) (W : FVec Ideal S128x256 .bf16) (p : Fin 5000) (a : Fin 128) :
    matmul dot_S5000x256_S256x128_S5000x128_1_0_0_1_n_n none x (transpose S256x128 [1, 0] W transposes_S128x256_p1_0_S256x128) (constant (F := Ideal) S5000x128 .f32 0x00000000#32) (ix2 p a)
      = ∑ d : Fin 256, x (ix2 p d) * W (ix2 a d) := by
  generalize hy : transpose S256x128 [1, 0] W transposes_S128x256_p1_0_S256x128 = y
  simp only [matmul]
  rw [Ideal.matmul_constant_zero_apply, ← Equiv.sum_comp (contrEquiv1 dot_S5000x256_S256x128_S5000x128_1_0_0_1_n_n 256 rfl rfl).symm]
  refine Finset.sum_congr rfl fun d _ => ?_
  have hd := contrEquiv1_symm_val dot_S5000x256_S256x128_S5000x128_1_0_0_1_n_n 256 rfl rfl d
  have el : dot_S5000x256_S256x128_S5000x128_1_0_0_1_n_n.lhsIdx (ix2 p a) ((contrEquiv1 dot_S5000x256_S256x128_S5000x128_1_0_0_1_n_n 256 rfl rfl).symm d) = ix2 p d := funext fun b => Fin.ext (by
    match b with
    | ⟨0, _⟩ => exact lhs_row _ _
    | ⟨1, _⟩ => exact (lhs_contr _ _).trans hd)
  have er : dot_S5000x256_S256x128_S5000x128_1_0_0_1_n_n.rhsIdx (ix2 p a) ((contrEquiv1 dot_S5000x256_S256x128_S5000x128_1_0_0_1_n_n 256 rfl rfl).symm d) = ix2 d a := funext fun b => Fin.ext (by
    match b with
    | ⟨0, _⟩ => exact (rhs_contr _ _).trans hd
    | ⟨1, _⟩ => exact rhs_col _ _)
  rw [el, er, ← hy]
  exact congrArg (x (ix2 p d) * ·) (transpose_apply [1, 0] W transposes_S128x256_p1_0_S256x128 (ix2 d a) (ix2 a d) (fun b => match b with
    | ⟨0, _⟩ => rfl
    | ⟨1, _⟩ => rfl))

/-- The q payload at (p, a): the block's row p against the weights' row a, plus the bias row's entry a. -/
private theorem qPayload_apply (x0 : Vec Ideal S5000x256 .f32) (x1 : Vec Ideal S128x256 .f32) (x2 : Vec Ideal S1x128 .f32) (p : Fin 5000) (a : Fin 128) :
    k0_pay2 x0 x1 x2 (ix2 p a) = (∑ d : Fin 256, x0 (ix2 p d) * x1 (ix2 a d)) + x2 (ix2 (0 : Fin 1) a) := by
  unfold k0_pay2 k0_pay1
  rw [addf_apply, shapeCast_self]
  refine congrArg₂ (· + ·) ?_ ?_
  · exact blockProduct_apply _ _ p a
  · exact broadcastTo_apply x2 broadcasts_S1x128_S5000x128 (ix2 p a) (ix2 (0 : Fin 1) a) (fun b => match b with
      | ⟨0, _⟩ => by show 0 = if (1 : Nat) = 1 then 0 else _; rw [if_pos rfl]
      | ⟨1, _⟩ => by show a.val = if (128 : Nat) = 1 then 0 else a.val; rw [if_neg (by decide)])

/-- The k payload at (p, a). -/
private theorem kPayload_apply (x0 : Vec Ideal S5000x256 .f32) (x3 : Vec Ideal S128x256 .f32) (x4 : Vec Ideal S1x128 .f32) (p : Fin 5000) (a : Fin 128) :
    k0_pay3 x0 x3 x4 (ix2 p a) = (∑ d : Fin 256, x0 (ix2 p d) * x3 (ix2 a d)) + x4 (ix2 (0 : Fin 1) a) := by
  unfold k0_pay3 k0_pay1
  rw [addf_apply, shapeCast_self]
  refine congrArg₂ (· + ·) ?_ ?_
  · exact blockProduct_apply _ _ p a
  · exact broadcastTo_apply x4 broadcasts_S1x128_S5000x128 (ix2 p a) (ix2 (0 : Fin 1) a) (fun b => match b with
      | ⟨0, _⟩ => by show 0 = if (1 : Nat) = 1 then 0 else _; rw [if_pos rfl]
      | ⟨1, _⟩ => by show a.val = if (128 : Nat) = 1 then 0 else a.val; rw [if_neg (by decide)])

/-! ## The blocks of the launch's arrays

Over the ten grid points the row windows (x and the two outputs) sit at block index (t, 0) and the weights' and
biases' windows at (0, 0): x's block t is rows 5000t … 5000t + 4999 of x, the weights' and biases' blocks are the
whole arrays, an output's block t covers rows 5000t … 5000t + 4999 of the output. -/

private theorem zeroOffsets : (![0, 0] : Fin 2 → Nat) = fun _ => 0 := funext fun a => match a with | ⟨0, _⟩ => rfl | ⟨1, _⟩ => rfl

private theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

private theorem point_lt (t : Fin cfg0.N) : t.val < 10 := Nat.lt_of_lt_of_eq t.isLt N_0

/-- x's block at point t, entry (p, d), is x at row 5000t + p. -/
private theorem xBlock_apply (c : Dev nD) (t : Fin cfg0.N) (p : Fin 5000) (d : Fin 256) (r : Fin 50000) (hr : r.val = 5000 * t.val + p.val) :
    (iblk0 V c 0 t : Vec Ideal S5000x256 .f32) (ix2 p d) = (V c main_arg0 : S50000x256.Idx → EReal) (ix2 r d) := by
  obtain ⟨e0, e1, -⟩ := blockIndex_facts t
  unfold iblk0
  rw [View.read_apply]
  show V c main_arg0 _ = V c main_arg0 _
  congr 1
  funext b
  apply Fin.ext
  match b with
  | ⟨0, _⟩ => show win0_0.index t (0 : Fin 2) * 5000 + 1 * p.val = r.val; rw [e0, hr]; omega
  | ⟨1, _⟩ => show win0_0.index t (1 : Fin 2) * 256 + 1 * d.val = d.val; rw [e1]; omega

/-- The q weights' block at every point is the whole array. -/
private theorem wqBlock_apply (c : Dev nD) (t : Fin cfg0.N) (a : Fin 128) (d : Fin 256) :
    (iblk0 V c 1 t : Vec Ideal S128x256 .f32) (ix2 a d) = (V c main_arg1 : S128x256.Idx → EReal) (ix2 a d) := by
  obtain ⟨-, -, e0, e1, -⟩ := blockIndex_facts t
  unfold iblk0
  rw [View.read_apply]
  show V c main_arg1 _ = V c main_arg1 _
  congr 1
  funext b
  apply Fin.ext
  match b with
  | ⟨0, _⟩ => show win0_1.index t (0 : Fin 2) * 128 + 1 * a.val = a.val; rw [e0]; omega
  | ⟨1, _⟩ => show win0_1.index t (1 : Fin 2) * 256 + 1 * d.val = d.val; rw [e1]; omega

/-- The q bias row's block at every point is the whole row. -/
private theorem bqBlock_apply (c : Dev nD) (t : Fin cfg0.N) (a : Fin 128) :
    (iblk0 V c 2 t : Vec Ideal S1x128 .f32) (ix2 (0 : Fin 1) a) = (V c main_v0 : S1x128.Idx → EReal) (ix2 (0 : Fin 1) a) := by
  obtain ⟨-, -, -, -, e0, e1, -⟩ := blockIndex_facts t
  unfold iblk0
  rw [View.read_apply]
  show V c main_v0 _ = V c main_v0 _
  congr 1
  funext b
  apply Fin.ext
  match b with
  | ⟨0, _⟩ => show win0_2.index t (0 : Fin 2) * 1 + 1 * 0 = 0; rw [e0]
  | ⟨1, _⟩ => show win0_2.index t (1 : Fin 2) * 128 + 1 * a.val = a.val; rw [e1]; omega

/-- The k weights' block at every point is the whole array. -/
private theorem wkBlock_apply (c : Dev nD) (t : Fin cfg0.N) (a : Fin 128) (d : Fin 256) :
    (iblk0 V c 3 t : Vec Ideal S128x256 .f32) (ix2 a d) = (V c main_arg3 : S128x256.Idx → EReal) (ix2 a d) := by
  obtain ⟨-, -, -, -, -, -, e0, e1, -⟩ := blockIndex_facts t
  unfold iblk0
  rw [View.read_apply]
  show V c main_arg3 _ = V c main_arg3 _
  congr 1
  funext b
  apply Fin.ext
  match b with
  | ⟨0, _⟩ => show win0_3.index t (0 : Fin 2) * 128 + 1 * a.val = a.val; rw [e0]; omega
  | ⟨1, _⟩ => show win0_3.index t (1 : Fin 2) * 256 + 1 * d.val = d.val; rw [e1]; omega

/-- The k bias row's block at every point is the whole row. -/
private theorem bkBlock_apply (c : Dev nD) (t : Fin cfg0.N) (a : Fin 128) :
    (iblk0 V c 4 t : Vec Ideal S1x128 .f32) (ix2 (0 : Fin 1) a) = (V c main_v1 : S1x128.Idx → EReal) (ix2 (0 : Fin 1) a) := by
  obtain ⟨-, -, -, -, -, -, -, -, e0, e1, -⟩ := blockIndex_facts t
  unfold iblk0
  rw [View.read_apply]
  show V c main_v1 _ = V c main_v1 _
  congr 1
  funext b
  apply Fin.ext
  match b with
  | ⟨0, _⟩ => show win0_4.index t (0 : Fin 2) * 1 + 1 * 0 = 0; rw [e0]
  | ⟨1, _⟩ => show win0_4.index t (1 : Fin 2) * 128 + 1 * a.val = a.val; rw [e1]; omega

/-! ## What a point writes back

The q block at point t, entry (p, a), is the projection at row 5000t + p: the block's row p is x's row 5000t + p, the
weights and the bias row are read whole. -/

private theorem qBlock_eq (c : Dev nD) (t : Fin cfg0.N) (j : S5000x128.Idx) :
    k0_pay2 (iblk0 V c 0 t) (iblk0 V c 1 t) (iblk0 V c 2 t) j
      = Cert.Spec.proj (V c main_arg0) (V c main_arg1) (biasRow (V c main_v0)) (((cfg0.win 5).blk t).view.emb j) := by
  obtain ⟨p, a, rfl⟩ : ∃ (p : Fin 5000) (a : Fin 128), j = ix2 p a := ⟨j 0, j 1, eq_ix2 j⟩
  have ht := point_lt t
  obtain ⟨-, -, -, -, -, -, -, -, -, -, e0, e1, -⟩ := blockIndex_facts t
  have hemb : ((cfg0.win 5).blk t).view.emb (ix2 p a) = (ix2 (⟨5000 * t.val + p.val, by omega⟩ : Fin 50000) a : S50000x128.Idx) := by
    funext b
    apply Fin.ext
    match b with
    | ⟨0, _⟩ => show win0_5.index t (0 : Fin 2) * 5000 + 1 * p.val = 5000 * t.val + p.val; rw [e0]; omega
    | ⟨1, _⟩ => show win0_5.index t (1 : Fin 2) * 128 + 1 * a.val = a.val; rw [e1]; omega
  refine Eq.trans ?_ (congrArg (Cert.Spec.proj (V c main_arg0) (V c main_arg1) (biasRow (V c main_v0))) hemb).symm
  rw [Cert.Spec.proj_apply]
  unfold Cert.Spec.projAt
  refine (qPayload_apply _ _ _ p a).trans ?_
  refine congrArg₂ (· + ·) (Finset.sum_congr rfl fun d _ => congrArg₂ (· * ·) (xBlock_apply V c t p d _ rfl) (wqBlock_apply V c t a d)) ?_
  exact bqBlock_apply V c t a

private theorem kBlock_eq (c : Dev nD) (t : Fin cfg0.N) (j : S5000x128.Idx) :
    k0_pay3 (iblk0 V c 0 t) (iblk0 V c 3 t) (iblk0 V c 4 t) j
      = Cert.Spec.proj (V c main_arg0) (V c main_arg3) (biasRow (V c main_v1)) (((cfg0.win 6).blk t).view.emb j) := by
  obtain ⟨p, a, rfl⟩ : ∃ (p : Fin 5000) (a : Fin 128), j = ix2 p a := ⟨j 0, j 1, eq_ix2 j⟩
  have ht := point_lt t
  obtain ⟨-, -, -, -, -, -, -, -, -, -, -, -, e0, e1⟩ := blockIndex_facts t
  have hemb : ((cfg0.win 6).blk t).view.emb (ix2 p a) = (ix2 (⟨5000 * t.val + p.val, by omega⟩ : Fin 50000) a : S50000x128.Idx) := by
    funext b
    apply Fin.ext
    match b with
    | ⟨0, _⟩ => show win0_6.index t (0 : Fin 2) * 5000 + 1 * p.val = 5000 * t.val + p.val; rw [e0]; omega
    | ⟨1, _⟩ => show win0_6.index t (1 : Fin 2) * 128 + 1 * a.val = a.val; rw [e1]; omega
  refine Eq.trans ?_ (congrArg (Cert.Spec.proj (V c main_arg0) (V c main_arg3) (biasRow (V c main_v1))) hemb).symm
  rw [Cert.Spec.proj_apply]
  unfold Cert.Spec.projAt
  refine (kPayload_apply _ _ _ p a).trans ?_
  refine congrArg₂ (· + ·) (Finset.sum_congr rfl fun d _ => congrArg₂ (· * ·) (xBlock_apply V c t p d _ rfl) (wkBlock_apply V c t a d)) ?_
  exact bkBlock_apply V c t a

/-- What point t writes back to q is block t of the projection. -/
private theorem qFlushed_eq (c : Dev nD) (t : Fin cfg0.N) :
    (dat0 (F := Ideal) V c).flushed 5 t
      = ((cfg0.win 5).blk t).view.read (Elt Ideal) (Cert.Spec.proj (V c main_arg0) (V c main_arg1) (biasRow (V c main_v0))) := by
  show (cfg0.win 5).cut (grid0.coords t) ((dat0 V c).after 5 t) = _
  rw [after0_5]
  unfold out0_5
  rw [View.canon_unit_zero zeroOffsets]
  simp only [View.ld_unit_zero (S := S5000x256) zeroOffsets, View.ld_unit_zero (S := S128x256) zeroOffsets, View.ld_unit_zero (S := S1x128) zeroOffsets]
  funext j
  exact qBlock_eq V c t j

/-- What point t writes back to k is block t of the projection. -/
private theorem kFlushed_eq (c : Dev nD) (t : Fin cfg0.N) :
    (dat0 (F := Ideal) V c).flushed 6 t
      = ((cfg0.win 6).blk t).view.read (Elt Ideal) (Cert.Spec.proj (V c main_arg0) (V c main_arg3) (biasRow (V c main_v1))) := by
  show (cfg0.win 6).cut (grid0.coords t) ((dat0 V c).after 6 t) = _
  rw [after0_6]
  unfold out0_6
  rw [View.canon_unit_zero zeroOffsets]
  simp only [View.ld_unit_zero (S := S5000x256) zeroOffsets, View.ld_unit_zero (S := S128x256) zeroOffsets, View.ld_unit_zero (S := S1x128) zeroOffsets]
  funext j
  exact kBlock_eq V c t j

/-! ## The blocks tile the outputs

An index of an output is in point t's block iff its row is among rows 5000t … 5000t + 4999; row r is in the block
of point r / 5000. -/

private theorem mem_qBlock (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v2_0).slice (win0_5.rect t)).set ↔ _
  rw [View.set_slice_whole, Rect.mem_set_unit]
  exact Iff.rfl

private theorem mem_kBlock (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v2_1).slice (win0_6.rect t)).set ↔ _
  rw [View.set_slice_whole, Rect.mem_set_unit]
  exact Iff.rfl

/-- The point whose blocks hold row r. -/
private theorem pointOfRow (i : S50000x128.Idx) : ∃ t : Fin cfg0.N, t.val = (i 0).val / 5000 := by
  have hi0 : (i 0).val < 50000 := (i 0).isLt
  exact ⟨⟨(i 0).val / 5000, Nat.lt_of_lt_of_eq (by omega : (i 0).val / 5000 < 10) N_0.symm⟩, rfl⟩

private theorem qCover (i : S50000x128.Idx) : ∃ t : Fin cfg0.N, (cfg0.win 5).flush t = true ∧ i ∈ ((cfg0.win 5).blk t).view.set := by
  have hi1 : (i 1).val < 128 := (i 1).isLt
  obtain ⟨t, ht⟩ := pointOfRow i
  obtain ⟨-, -, -, -, -, -, -, -, -, -, e0, e1, -⟩ := blockIndex_facts t
  refine ⟨t, flush0_5 t, ?_⟩
  rw [mem_qBlock]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

private theorem kCover (i : S50000x128.Idx) : ∃ t : Fin cfg0.N, (cfg0.win 6).flush t = true ∧ i ∈ ((cfg0.win 6).blk t).view.set := by
  have hi1 : (i 1).val < 128 := (i 1).isLt
  obtain ⟨t, ht⟩ := pointOfRow i
  obtain ⟨-, -, -, -, -, -, -, -, -, -, -, -, e0, e1⟩ := blockIndex_facts t
  refine ⟨t, flush0_6 t, ?_⟩
  rw [mem_kBlock]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- The q array after the first launch: the projection of the launch's arrays. -/
theorem final0_5 (c : Dev nD) :
    (dat0 (F := Ideal) V c).arrAt 5 cfg0.N = Cert.Spec.proj (V c main_arg0) (V c main_arg1) (biasRow (V c main_v0)) := by
  exact (dat0 (F := Ideal) V c).arrAt_eq_of_cover 5 (Cert.Spec.proj (V c main_arg0) (V c main_arg1) (biasRow (V c main_v0)))
    (fun t _ => qFlushed_eq V c t) qCover

/-- The k array after the first launch. -/
theorem final0_6 (c : Dev nD) :
    (dat0 (F := Ideal) V c).arrAt 6 cfg0.N = Cert.Spec.proj (V c main_arg0) (V c main_arg3) (biasRow (V c main_v1)) := by
  exact (dat0 (F := Ideal) V c).arrAt_eq_of_cover 6 (Cert.Spec.proj (V c main_arg0) (V c main_arg3) (biasRow (V c main_v1)))
    (fun t _ => kFlushed_eq V c t) kCover

end Cert.KernelIdeal.Hand

end
-- ==== Proof.KRegion1.lean ====
/- The second launch, read as values: over 125 blocks of 6400 edges it writes, per edge, exp of the scaled sum over the
   128 coordinates of qi·kj + qj·ki, from the four gathered row tables the launch finds. -/
import proofs.«421865_j65403761983980_1_alg».proof.Proof.Gen.KernelIdeal.Frame
import proofs.«421865_j65403761983980_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One block's scores, row by row -/

/-- The index the lane sum inserts on the summed axis: row p, coordinate a. -/
private theorem lane_idx (p : Fin 6400) (a : Fin 128) : reduces_S6400x128_S6400.lift (ix1 p) a = ix2 p a := by
  funext d; apply Fin.ext
  match d with
  | ⟨0, _⟩ => rfl
  | ⟨1, _⟩ => rfl

/-- Row p of a block's score column: the four blocks' rows p multiplied pairwise, added, summed over the 128 coordinates,
    scaled by the word 0x3D800000 (1/16), exponentiated. -/
private theorem score_block_apply (x0 x1 x2 x3 : Vec Ideal S6400x128 .f32) (p : Fin 6400) :
    k1_pay1 (F := Ideal) x0 x1 x2 x3 (ix2 p (0 : Fin 1))
      = Ideal.exp ((∑ a : Fin 128, (x0 (ix2 p a) * x1 (ix2 p a) + x2 (ix2 p a) * x3 (ix2 p a))) * Ideal.ofBits .f32 0x3D800000#32) := by
  unfold k1_pay1
  simp only [shapeCast_self]
  refine congrArg Ideal.exp (congrArg (fun z => z * Ideal.ofBits .f32 0x3D800000#32) ?_)
  -- the column [6400, 1] at (p, 0) is the vector [6400] at p: the same row-major position
  refine (shapeCast_apply _ shapeCasts_S6400_S6400x1 (ix2 p (0 : Fin 1)) (ix1 p) ?_).trans ?_
  · rw [Shape.rowMajor_val_one, Shape.rowMajor_val_two]
    show p.val = p.val * 1 + 0
    omega
  -- the sum along axis 1 from the zero word is the sum over the 128 coordinates
  refine (Ideal.multiReduction_add_single (addf (mulf x0 x1) (mulf x2 x3)) 0x00000000#32 reduces_S6400x128_S6400 _ _ (ix1 p)).trans ?_
  show ∑ k : Fin 128, (x0 (reduces_S6400x128_S6400.lift (ix1 p) k) * x1 (reduces_S6400x128_S6400.lift (ix1 p) k)
      + x2 (reduces_S6400x128_S6400.lift (ix1 p) k) * x3 (reduces_S6400x128_S6400.lift (ix1 p) k)) = _
  refine Finset.sum_congr rfl fun a _ => ?_
  rw [lane_idx p a]

/-! ## The blocks: point t holds rows 6400·t … 6400·t + 6399 of every table and of the column -/

private theorem zero_offsets : (![0, 0] : Fin 2 → Nat) = fun _ => 0 := funext fun a => by fin_cases a <;> rfl

/-- At point t every table's block index is (t, 0), and so is the column's. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of block t is an edge: 6400·t + p < 800000, as t < 125. -/
private theorem row_lt (t : Fin cfg1.N) (p : Fin 6400) : 6400 * t.val + p.val < 800000 := by
  have h := t.isLt
  have hN : cfg1.N = 125 := N_1
  omega

/-- Block t of table 0, at (p, a), is the table at row 6400·t + p, coordinate a. -/
private theorem block0_apply (c : Dev nD) (t : Fin cfg1.N) (p : Fin 6400) (a : Fin 128) :
    (iblk1 V c 0 t : Vec Ideal S6400x128 .f32) (ix2 p a)
      = (V c main_v7 : S800000x128.Idx → Elt Ideal .f32) (ix2 ⟨6400 * t.val + p.val, row_lt t p⟩ a) := by
  obtain ⟨e0, e1, -⟩ := block_index t
  unfold iblk1
  rw [View.read_apply]
  show V c main_v7 _ = V c main_v7 _
  congr 1
  funext d; apply Fin.ext
  match d with
  | ⟨0, _⟩ => show win1_0.index t (0 : Fin 2) * 6400 + 1 * p.val = 6400 * t.val + p.val; rw [e0]; omega
  | ⟨1, _⟩ => show win1_0.index t (1 : Fin 2) * 128 + 1 * a.val = a.val; rw [e1]; omega

/-- Block t of table 1, at (p, a), is the table at row 6400·t + p, coordinate a. -/
private theorem block1_apply (c : Dev nD) (t : Fin cfg1.N) (p : Fin 6400) (a : Fin 128) :
    (iblk1 V c 1 t : Vec Ideal S6400x128 .f32) (ix2 p a)
      = (V c main_v8 : S800000x128.Idx → Elt Ideal .f32) (ix2 ⟨6400 * t.val + p.val, row_lt t p⟩ a) := by
  obtain ⟨-, -, e0, e1, -⟩ := block_index t
  unfold iblk1
  rw [View.read_apply]
  show V c main_v8 _ = V c main_v8 _
  congr 1
  funext d; apply Fin.ext
  match d with
  | ⟨0, _⟩ => show win1_1.index t (0 : Fin 2) * 6400 + 1 * p.val = 6400 * t.val + p.val; rw [e0]; omega
  | ⟨1, _⟩ => show win1_1.index t (1 : Fin 2) * 128 + 1 * a.val = a.val; rw [e1]; omega

/-- Block t of table 2, at (p, a), is the table at row 6400·t + p, coordinate a. -/
private theorem block2_apply (c : Dev nD) (t : Fin cfg1.N) (p : Fin 6400) (a : Fin 128) :
    (iblk1 V c 2 t : Vec Ideal S6400x128 .f32) (ix2 p a)
      = (V c main_v9 : S800000x128.Idx → Elt Ideal .f32) (ix2 ⟨6400 * t.val + p.val, row_lt t p⟩ a) := by
  obtain ⟨-, -, -, -, e0, e1, -⟩ := block_index t
  unfold iblk1
  rw [View.read_apply]
  show V c main_v9 _ = V c main_v9 _
  congr 1
  funext d; apply Fin.ext
  match d with
  | ⟨0, _⟩ => show win1_2.index t (0 : Fin 2) * 6400 + 1 * p.val = 6400 * t.val + p.val; rw [e0]; omega
  | ⟨1, _⟩ => show win1_2.index t (1 : Fin 2) * 128 + 1 * a.val = a.val; rw [e1]; omega

/-- Block t of table 3, at (p, a), is the table at row 6400·t + p, coordinate a. -/
private theorem block3_apply (c : Dev nD) (t : Fin cfg1.N) (p : Fin 6400) (a : Fin 128) :
    (iblk1 V c 3 t : Vec Ideal S6400x128 .f32) (ix2 p a)
      = (V c main_v10 : S800000x128.Idx → Elt Ideal .f32) (ix2 ⟨6400 * t.val + p.val, row_lt t p⟩ a) := by
  obtain ⟨-, -, -, -, -, -, e0, e1, -⟩ := block_index t
  unfold iblk1
  rw [View.read_apply]
  show V c main_v10 _ = V c main_v10 _
  congr 1
  funext d; apply Fin.ext
  match d with
  | ⟨0, _⟩ => show win1_3.index t (0 : Fin 2) * 6400 + 1 * p.val = 6400 * t.val + p.val; rw [e0]; omega
  | ⟨1, _⟩ => show win1_3.index t (1 : Fin 2) * 128 + 1 * a.val = a.val; rw [e1]; omega

/-- Row p of what point t computes is the score of edge e = 6400·t + p. -/
private theorem score_point_apply (c : Dev nD) (t : Fin cfg1.N) (p : Fin 6400) (e : Fin 800000) (he : e.val = 6400 * t.val + p.val) :
    k1_pay1 (F := Ideal) (iblk1 V c 0 t) (iblk1 V c 1 t) (iblk1 V c 2 t) (iblk1 V c 3 t) (ix2 p (0 : Fin 1))
      = Cert.Spec.scoreRow (V c main_v7) (V c main_v8) (V c main_v9) (V c main_v10) e := by
  obtain rfl : e = ⟨6400 * t.val + p.val, row_lt t p⟩ := Fin.ext he
  refine (score_block_apply _ _ _ _ p).trans ?_
  unfold Cert.Spec.scoreRow
  refine congrArg Ideal.exp (congrArg (fun z => z * Ideal.ofBits .f32 0x3D800000#32) (Finset.sum_congr rfl fun a _ => ?_))
  rw [block0_apply V c t p a, block1_apply V c t p a, block2_apply V c t p a, block3_apply V c t p a]

/-! ## From blocks to the column -/

/-- What point t writes back is block t of the score column. -/
private theorem written_eq (c : Dev nD) (t : Fin cfg1.N) :
    (dat1 (F := Ideal) V c).flushed 4 t = ((cfg1.win 4).blk t).view.read (Elt Ideal)
      (fun i : S800000x1.Idx => Cert.Spec.scoreRow (V c main_v7) (V c main_v8) (V c main_v9) (V c main_v10) ⟨(i 0).val, idx2_lt0 i⟩) := by
  show (cfg1.win 4).cut (grid1.coords t) ((dat1 V c).after 4 t) = _
  rw [after1_4]
  unfold out1_4
  rw [View.canon_unit_zero zero_offsets]
  simp only [View.ld_unit_zero (S := S6400x128) zero_offsets]
  obtain ⟨-, -, -, -, -, -, -, -, e0, -⟩ := block_index t
  funext j
  obtain ⟨p, q, rfl⟩ : ∃ (p : Fin 6400) (q : Fin 1), j = ix2 p q := ⟨j 0, j 1, eq_ix2 j⟩
  obtain rfl : q = 0 := Subsingleton.elim _ _
  rw [View.read_apply]
  exact score_point_apply V c t p _ (by show win1_4.index t (0 : Fin 2) * 6400 + 1 * p.val = _; rw [e0]; omega)

/-- An edge row is in point t's block iff each coordinate is in the block's range on its axis. -/
private theorem mem_block (t : Fin cfg1.N) (i : S800000x1.Idx) :
    i ∈ ((cfg1.win 4).blk t).view.set ↔ ∀ a : Fin 2, win1_4.index t a * S6400x1.size a ≤ (i a).val ∧ (i a).val < win1_4.index t a * S6400x1.size a + S6400x1.size a := by
  show i ∈ ((View.whole main_v11).slice (win1_4.rect t)).set ↔ _
  rw [View.set_slice_whole, Rect.mem_set_unit]
  exact Iff.rfl

/-- Row e of the column is in the block of point e / 6400, which writes back. -/
private theorem covered (i : S800000x1.Idx) :
    ∃ t : Fin cfg1.N, (cfg1.win 4).flush t = true ∧ i ∈ ((cfg1.win 4).blk t).view.set := by
  have hi0 : (i 0).val < 800000 := idx2_lt0 i
  have hi1 : (i 1).val < 1 := idx2_lt1 i
  have hN : cfg1.N = 125 := N_1
  obtain ⟨t, ht⟩ : ∃ t : Fin cfg1.N, t.val = (i 0).val / 6400 := ⟨⟨(i 0).val / 6400, by rw [hN]; omega⟩, rfl⟩
  obtain ⟨-, -, -, -, -, -, -, -, e0, e1⟩ := block_index t
  refine ⟨t, flush1_4 t, ?_⟩
  rw [mem_block]
  intro a
  match a with
  | ⟨0, _⟩ =>
    show win1_4.index t (0 : Fin 2) * 6400 ≤ (i 0).val ∧ (i 0).val < win1_4.index t (0 : Fin 2) * 6400 + 6400
    rw [e0, ht]; omega
  | ⟨1, _⟩ =>
    show win1_4.index t (1 : Fin 2) * 1 ≤ (i 1).val ∧ (i 1).val < win1_4.index t (1 : Fin 2) * 1 + 1
    rw [e1]; omega

/-- The score column [800000, 1] after the second launch. -/
theorem final1_4 (c : Dev nD) :
    (dat1 (F := Ideal) V c).arrAt 4 cfg1.N
      = fun i : S800000x1.Idx => Cert.Spec.scoreRow (V c main_v7) (V c main_v8) (V c main_v9) (V c main_v10) ⟨(i 0).val, idx2_lt0 i⟩ :=
  (dat1 V c).arrAt_eq_of_cover 4 _ (fun t _ => written_eq V c t) covered

end Cert.KernelIdeal.Hand

end
-- ==== Proof.KHost.lean ====
/- Between the two launches and after them the program runs on plain arrays.  Walking the boundary contents back from
   the return: the edge scores are the second launch's column read as a vector; its four inputs are the rows of q and k
   the edge table names (a masked take: with every word in range the mask keeps every row); q and k are the first launch's
   outputs; the node sums are the shared last stretch applied to the scores. -/
import proofs.«421865_j65403761983980_1_alg».proof.Proof.Gen.KernelIdeal.Frame
import proofs.«421865_j65403761983980_1_alg».proof.Proof.Spec
import proofs.«421865_j65403761983980_1_alg».proof.Proof.KRegion0
import proofs.«421865_j65403761983980_1_alg».proof.Proof.KRegion1
import proofs.«421865_j65403761983980_1_alg».proof.Proof.Tail
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A buffer that no operation of a stretch writes holds after the stretch what it held before. -/
local macro "unwritten " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The column of row numbers an index vector names: a negative word is moved up by 50000, the rest are kept. -/
private def wordCol (idx : S800000.Idx → BitVec 32) : S800000x1.Idx → BitVec 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The rows of a [50000, 128] table at 800000 index words: a row whose word, after the move, lies outside [0, 49999] is a row
    of NaN; any other is the table's row at the word, read signed and clamped. -/
private def takeRows (A : S50000x128.Idx → EReal) (idx : S800000.Idx → BitVec 32) : S800000x128.Idx → EReal :=
  select
    (broadcastInDim S800000x128 ![0] bcast_S800000_S800000x128_0
      (Host.reduce IntOp.andi
        (andi (cmpi .sge (wordCol idx) (broadcastInDim S800000x1 ![] bcast_S_S800000x1 (constantI S_ 32 0#32)))
          (cmpi .sle (wordCol idx) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 A (wordCol idx))
    (broadcastInDim S800000x128 ![] bcast_S_S800000x128 (constant (F := Ideal) S_ .f32 0x7FC00000#32))

/-! ## Words -/

/-- A word that is not negative is not below zero. -/
private theorem cmpi_slt_zero {w : BitVec 32} (h : 0 ≤ w.toInt) : IntOp.cmpi .slt w 0#32 = 0#1 := by
  show BitVec.ofBool (w.slt 0#32) = 0#1
  have h0 : (0#32 : BitVec 32).toInt = 0 := by decide
  have e : w.slt 0#32 = false := by
    simp only [BitVec.slt, h0]; exact decide_eq_false (by omega)
  rw [e]; rfl

/-- … and is at least zero. -/
private theorem cmpi_sge_zero {w : BitVec 32} (h : 0 ≤ w.toInt) : IntOp.cmpi .sge w 0#32 = 1#1 := by
  show BitVec.ofBool ((0#32 : BitVec 32).sle w) = 1#1
  have h0 : (0#32 : BitVec 32).toInt = 0 := by decide
  have e : (0#32 : BitVec 32).sle w = true := by
    simp only [BitVec.sle, h0]; exact decide_eq_true h
  rw [e]; rfl

/-- A word below 50000 is at most 49999. -/
private theorem cmpi_sle_top {w : BitVec 32} (h : w.toInt < 50000) : IntOp.cmpi .sle w 49999#32 = 1#1 := by
  show BitVec.ofBool (w.sle 49999#32) = 1#1
  have h0 : (49999#32 : BitVec 32).toInt = 49999 := by decide
  have e : w.sle 49999#32 = true := by
    simp only [BitVec.sle, h0]; exact decide_eq_true (by omega)
  rw [e]; rfl

/-! ## A conjunction of ones -/

private theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    have e : IntOp.andi (1#1 : BitVec 1) (x a) = 1#1 := by rw [hx a]; decide
    simp only [List.foldl_cons]
    rw [e]; exact ih

/-- The conjunction along any axes of an array of ones, from one, is one everywhere. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-! ## Reads -/

/-- A vector laid as a column reads, at row e, the vector at e. -/
private theorem col_apply {α : Type} (h : S800000.BroadcastsInDim S800000x1 ![0]) (w : S800000.Idx → α) (e : Fin 800000) (u : Fin 1) :
    broadcastInDim S800000x1 ![0] h w (ix2 e u) = w (ix1 e) :=
  broadcastInDim_apply _ h w _ _ (fun a => by
    match a with
    | ⟨0, _⟩ => rfl)

/-- A vector repeated along 128 columns reads, at (e, a), the vector at e. -/
private theorem rows_apply {α : Type} (h : S800000.BroadcastsInDim S800000x128 ![0]) (w : S800000.Idx → α) (e : Fin 800000) (a : Fin 128) :
    broadcastInDim S800000x128 ![0] h w (ix2 e a) = w (ix1 e) :=
  broadcastInDim_apply _ h w _ _ (fun b => by
    match b with
    | ⟨0, _⟩ => rfl)

/-- The row gather at (e, a): the table's row named by the column's word at e, read signed and clamped, at column a. -/
private theorem gather_row (A : S50000x128.Idx → EReal) (col : S800000x1.Idx → BitVec 32) (e : Fin 800000) (a : Fin 128) :
    Host.gather gather_S50000x128_S800000x1_S800000x128_1_0_n_n_0_1_1128 A col (ix2 e a)
      = A (ix2 (Cert.Spec.rowOf (col (ix2 e (0 : Fin 1)))) a) := by
  unfold Host.gather
  congr 1
  funext b
  refine Fin.ext ?_
  match b with
  | ⟨0, _⟩ =>
    show GatherDims.start gather_S50000x128_S800000x1_S800000x128_1_0_n_n_0_1_1128 (ix2 e a) col 0
        + GatherDims.batchCoord gather_S50000x128_S800000x1_S800000x128_1_0_n_n_0_1_1128 (ix2 e a) 0
        + GatherDims.offCoord gather_S50000x128_S800000x1_S800000x128_1_0_n_n_0_1_1128 (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S800000x1_S800000x128_1_0_n_n_0_1_1128.startIndexMap from List.mem_singleton.mpr rfl)]
    have hsi : GatherDims.siIdx gather_S50000x128_S800000x1_S800000x128_1_0_n_n_0_1_1128 (ix2 e a)
        ⟨List.idxOf (0 : Fin 2) gather_S50000x128_S800000x1_S800000x128_1_0_n_n_0_1_1128.startIndexMap,
          List.idxOf_lt_length_iff.2 (List.mem_singleton.mpr rfl)⟩ = ix2 e (0 : Fin 1) := by
      funext b'
      refine Fin.ext ?_
      match b' with
      | ⟨0, _⟩ => rfl
      | ⟨1, _⟩ => rfl
    rw [hsi]
    rfl
  | ⟨1, _⟩ =>
    show GatherDims.start gather_S50000x128_S800000x1_S800000x128_1_0_n_n_0_1_1128 (ix2 e a) col 1
        + GatherDims.batchCoord gather_S50000x128_S800000x1_S800000x128_1_0_n_n_0_1_1128 (ix2 e a) 1
        + GatherDims.offCoord gather_S50000x128_S800000x1_S800000x128_1_0_n_n_0_1_1128 (ix2 e a) 1 = a.val
    rw [GatherDims.batchCoord_eq_zero _ _ _ List.not_mem_nil]
    unfold GatherDims.start GatherDims.offCoord
    rw [dif_neg (show (1 : Fin 2) ∉ gather_S50000x128_S800000x1_S800000x128_1_0_n_n_0_1_1128.startIndexMap from by decide),
      dif_pos (show (1 : Fin 2) ∈ gather_S50000x128_S800000x1_S800000x128_1_0_n_n_0_1_1128.sKept from by decide)]
    simp only [Nat.zero_add, Nat.add_zero]
    rfl

/-! ## The masked row take, with every word in range -/

/-- A column of words all in [0, 50000): the test 0 ≤ word ≤ 49999, joined along the column's unit axis, is one at every row. -/
private theorem mask_ones (col : S800000x1.Idx → BitVec 32) (hc : ∀ i, 0 ≤ (col i).toInt ∧ (col i).toInt < 50000) (j : S800000.Idx) :
    Host.reduce IntOp.andi
      (andi (cmpi .sge col (broadcastInDim S800000x1 ![] bcast_S_S800000x1 (constantI S_ 32 0#32)))
        (cmpi .sle col (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_ j = 1#1 :=
  reduce_andi_ones _ _ _ _ (fun i => by
    show IntOp.andi (IntOp.cmpi .sge (col i) 0#32) (IntOp.cmpi .sle (col i) 49999#32) = 1#1
    rw [cmpi_sge_zero (hc i).1, cmpi_sle_top (hc i).2]
    decide) (fun _ => rfl) j

/-- With every word of the index vector not negative, the column reads at each row that row's word. -/
private theorem wordCol_apply (idx : S800000.Idx → BitVec 32) (h : ∀ i, 0 ≤ (idx i).toInt) (i : S800000x1.Idx) :
    wordCol idx i = idx (ix1 ⟨(i 0).val, idx2_lt0 i⟩) := by
  obtain ⟨p, u, rfl⟩ : ∃ (p : Fin 800000) (u : Fin 1), i = ix2 p u := ⟨i 0, i 1, eq_ix2 i⟩
  unfold wordCol
  refine (col_apply _ _ p u).trans ?_
  show Scalar.select (IntOp.cmpi .slt (idx (ix1 p)) 0#32) _ _ = _
  rw [cmpi_slt_zero (h _), select_zero]

/-- With every index word in [0, 50000) the move keeps the word, the mask keeps every row, and the gather reads the row the
    word names. -/
private theorem takeRows_apply (A : S50000x128.Idx → EReal) (idx : S800000.Idx → BitVec 32)
    (h : ∀ i, 0 ≤ (idx i).toInt ∧ (idx i).toInt < 50000) (e : Fin 800000) (a : Fin 128) :
    takeRows A idx (ix2 e a) = A (ix2 (Cert.Spec.rowOf (idx (ix1 e))) a) := by
  have hcol := wordCol_apply idx (fun i => (h i).1)
  have hm := mask_ones (wordCol idx) (fun i => by rw [hcol i]; exact h _) (ix1 e)
  unfold takeRows
  rw [select_apply, rows_apply, hm, select_one, gather_row, hcol]
/-- Contents carried to a reference's own type and back are the contents. -/
private theorem ofBuf_toBuf {T : BufTy} (x : StableHlo.TRef sig T) (v : T.Contents (Elt Ideal)) : x.ofBuf (x.toBuf v) = v := by
  obtain ⟨r, h, h2, h3⟩ := x
  subst h
  rfl

section Casts
variable (U : Valuation τ sig (Elt Ideal))
private theorem ofBuf_v4 : (StableHlo.TRef.of main_v4 : StableHlo.TRef sig ⟨S800000, .i32⟩).ofBuf (U (Proc.devRef .tc main_v4)) = U (Proc.devRef .tc main_v4) := rfl
private theorem ofBuf_v6 : (StableHlo.TRef.of main_v6 : StableHlo.TRef sig ⟨S800000, .i32⟩).ofBuf (U (Proc.devRef .tc main_v6)) = U (Proc.devRef .tc main_v6) := rfl
private theorem ofBuf_v2_0 : (StableHlo.TRef.of main_v2_0 : StableHlo.TRef sig ⟨S50000x128, .f32⟩).ofBuf (U (Proc.devRef .tc main_v2_0)) = U (Proc.devRef .tc main_v2_0) := rfl
private theorem ofBuf_v2_1 : (StableHlo.TRef.of main_v2_1 : StableHlo.TRef sig ⟨S50000x128, .f32⟩).ofBuf (U (Proc.devRef .tc main_v2_1)) = U (Proc.devRef .tc main_v2_1) := rfl
private theorem toBuf_v7 (X : S800000x128.Idx → EReal) : (StableHlo.TRef.of main_v7 : StableHlo.TRef sig ⟨S800000x128, .f32⟩).toBuf (Val := Elt Ideal) X = X := rfl
private theorem toBuf_v8 (X : S800000x128.Idx → EReal) : (StableHlo.TRef.of main_v8 : StableHlo.TRef sig ⟨S800000x128, .f32⟩).toBuf (Val := Elt Ideal) X = X := rfl
private theorem toBuf_v9 (X : S800000x128.Idx → EReal) : (StableHlo.TRef.of main_v9 : StableHlo.TRef sig ⟨S800000x128, .f32⟩).toBuf (Val := Elt Ideal) X = X := rfl
private theorem toBuf_v10 (X : S800000x128.Idx → EReal) : (StableHlo.TRef.of main_v10 : StableHlo.TRef sig ⟨S800000x128, .f32⟩).toBuf (Val := Elt Ideal) X = X := rfl
end Casts

private theorem w4_v7 (c : Dev nD) :
    (W4 m ρ c (Proc.devRef .tc main_v7) : S800000x128.Idx → EReal)
      = takeRows (W3 m ρ c (Proc.devRef .tc main_v2_0)) (W3 m ρ c (Proc.devRef .tc main_v4)) := by
  show StableHlo.after hostOps1_1 _ (Proc.devRef .tc main_v7) = _
  generalize W3 m ρ c = U
  after_results_simp
  simp only [ofBuf_toBuf, ofBuf_v4, ofBuf_v2_0, toBuf_v7]
  rfl

private theorem w5_v8 (c : Dev nD) :
    (W5 m ρ c (Proc.devRef .tc main_v8) : S800000x128.Idx → EReal)
      = takeRows (W4 m ρ c (Proc.devRef .tc main_v2_1)) (W4 m ρ c (Proc.devRef .tc main_v6)) := by
  show StableHlo.after hostOps1_2 _ (Proc.devRef .tc main_v8) = _
  generalize W4 m ρ c = U
  after_results_simp
  simp only [ofBuf_toBuf, ofBuf_v6, ofBuf_v2_1, toBuf_v8]
  rfl

private theorem w6_v9 (c : Dev nD) :
    (W6 m ρ c (Proc.devRef .tc main_v9) : S800000x128.Idx → EReal)
      = takeRows (W5 m ρ c (Proc.devRef .tc main_v2_0)) (W5 m ρ c (Proc.devRef .tc main_v6)) := by
  show StableHlo.after hostOps1_3 _ (Proc.devRef .tc main_v9) = _
  generalize W5 m ρ c = U
  after_results_simp
  simp only [ofBuf_toBuf, ofBuf_v6, ofBuf_v2_0, toBuf_v9]
  rfl

private theorem w7_v10 (c : Dev nD) :
    (W7 m ρ c (Proc.devRef .tc main_v10) : S800000x128.Idx → EReal)
      = takeRows (W6 m ρ c (Proc.devRef .tc main_v2_1)) (W6 m ρ c (Proc.devRef .tc main_v4)) := by
  show StableHlo.after hostOps1_4 _ (Proc.devRef .tc main_v10) = _
  generalize W6 m ρ c = U
  after_results_simp
  simp only [ofBuf_toBuf, ofBuf_v4, ofBuf_v2_1, toBuf_v10]
  rfl

/-! ## The buffers a stretch does not write, stretch by stretch -/

section Walk
variable (c : Dev nD)

private theorem w7_v7_back : W7 m ρ c (Proc.devRef .tc main_v7) = W4 m ρ c (Proc.devRef .tc main_v7) :=
  (show W7 m ρ c (Proc.devRef .tc main_v7) = W6 m ρ c (Proc.devRef .tc main_v7) by unwritten hostOps1_4).trans
    ((show W6 m ρ c (Proc.devRef .tc main_v7) = W5 m ρ c (Proc.devRef .tc main_v7) by unwritten hostOps1_3).trans
      (show W5 m ρ c (Proc.devRef .tc main_v7) = W4 m ρ c (Proc.devRef .tc main_v7) by unwritten hostOps1_2))

private theorem w7_v8_back : W7 m ρ c (Proc.devRef .tc main_v8) = W5 m ρ c (Proc.devRef .tc main_v8) :=
  (show W7 m ρ c (Proc.devRef .tc main_v8) = W6 m ρ c (Proc.devRef .tc main_v8) by unwritten hostOps1_4).trans
    (show W6 m ρ c (Proc.devRef .tc main_v8) = W5 m ρ c (Proc.devRef .tc main_v8) by unwritten hostOps1_3)

private theorem w7_v9_back : W7 m ρ c (Proc.devRef .tc main_v9) = W6 m ρ c (Proc.devRef .tc main_v9) := by
  unwritten hostOps1_4

private theorem w6_v2_1_back : W6 m ρ c (Proc.devRef .tc main_v2_1) = W3 m ρ c (Proc.devRef .tc main_v2_1) :=
  (show W6 m ρ c (Proc.devRef .tc main_v2_1) = W5 m ρ c (Proc.devRef .tc main_v2_1) by unwritten hostOps1_3).trans
    ((show W5 m ρ c (Proc.devRef .tc main_v2_1) = W4 m ρ c (Proc.devRef .tc main_v2_1) by unwritten hostOps1_2).trans
      (show W4 m ρ c (Proc.devRef .tc main_v2_1) = W3 m ρ c (Proc.devRef .tc main_v2_1) by unwritten hostOps1_1))

private theorem w6_v4_back : W6 m ρ c (Proc.devRef .tc main_v4) = W3 m ρ c (Proc.devRef .tc main_v4) :=
  (show W6 m ρ c (Proc.devRef .tc main_v4) = W5 m ρ c (Proc.devRef .tc main_v4) by unwritten hostOps1_3).trans
    ((show W5 m ρ c (Proc.devRef .tc main_v4) = W4 m ρ c (Proc.devRef .tc main_v4) by unwritten hostOps1_2).trans
      (show W4 m ρ c (Proc.devRef .tc main_v4) = W3 m ρ c (Proc.devRef .tc main_v4) by unwritten hostOps1_1))

private theorem w5_v2_0_back : W5 m ρ c (Proc.devRef .tc main_v2_0) = W3 m ρ c (Proc.devRef .tc main_v2_0) :=
  (show W5 m ρ c (Proc.devRef .tc main_v2_0) = W4 m ρ c (Proc.devRef .tc main_v2_0) by unwritten hostOps1_2).trans
    (show W4 m ρ c (Proc.devRef .tc main_v2_0) = W3 m ρ c (Proc.devRef .tc main_v2_0) by unwritten hostOps1_1)

private theorem w5_v6_back : W5 m ρ c (Proc.devRef .tc main_v6) = W3 m ρ c (Proc.devRef .tc main_v6) :=
  (show W5 m ρ c (Proc.devRef .tc main_v6) = W4 m ρ c (Proc.devRef .tc main_v6) by unwritten hostOps1_2).trans
    (show W4 m ρ c (Proc.devRef .tc main_v6) = W3 m ρ c (Proc.devRef .tc main_v6) by unwritten hostOps1_1)

private theorem w4_v2_1_back : W4 m ρ c (Proc.devRef .tc main_v2_1) = W3 m ρ c (Proc.devRef .tc main_v2_1) := by
  unwritten hostOps1_1

private theorem w4_v6_back : W4 m ρ c (Proc.devRef .tc main_v6) = W3 m ρ c (Proc.devRef .tc main_v6) := by
  unwritten hostOps1_1

private theorem w3_v2_0_back : W3 m ρ c (Proc.devRef .tc main_v2_0) = W2 m ρ c (Proc.devRef .tc main_v2_0) := by
  unwritten hostOps1

private theorem w3_v2_1_back : W3 m ρ c (Proc.devRef .tc main_v2_1) = W2 m ρ c (Proc.devRef .tc main_v2_1) := by
  unwritten hostOps1

private theorem w2_arg5_back : W2 m ρ c (Proc.devRef .tc main_arg5) = m ((c.tc : Thread nD τ).loc main_arg5) :=
  (W2_of_ne m ρ c main_arg5 (by decide)).trans
    (show W1 m ρ c (Proc.devRef .tc main_arg5) = W0 m ρ c (Proc.devRef .tc main_arg5) by unwritten hostOps0)

private theorem v1_arg0 : V1 m ρ c main_arg0 = m ((c.tc : Thread nD τ).loc main_arg0) :=
  show W1 m ρ c (Proc.devRef .tc main_arg0) = W0 m ρ c (Proc.devRef .tc main_arg0) by unwritten hostOps0

private theorem v1_arg1 : V1 m ρ c main_arg1 = m ((c.tc : Thread nD τ).loc main_arg1) :=
  show W1 m ρ c (Proc.devRef .tc main_arg1) = W0 m ρ c (Proc.devRef .tc main_arg1) by unwritten hostOps0

private theorem v1_arg3 : V1 m ρ c main_arg3 = m ((c.tc : Thread nD τ).loc main_arg3) :=
  show W1 m ρ c (Proc.devRef .tc main_arg3) = W0 m ρ c (Proc.devRef .tc main_arg3) by unwritten hostOps0

end Walk

/-! ## The two projected tables and the two index vectors, over the launch arrays -/

section Tables
variable (c : Dev nD)

/-- The bias row the first launch finds, read as a vector, is the bias vector at launch. -/
private theorem bias_v0 : biasRow (V1 m ρ c main_v0) = m ((c.tc : Thread nD τ).loc main_arg2) := by
  have e : (V1 m ρ c main_v0 : S1x128.Idx → EReal)
      = shapeCast S1x128 (m ((c.tc : Thread nD τ).loc main_arg2)) shapeCasts_S128_S1x128 := by
    show StableHlo.after hostOps0 _ (Proc.devRef .tc main_v0) = _
    after_results
    rfl
  funext k
  obtain ⟨p, rfl⟩ : ∃ p : Fin 128, k = ix1 p := ⟨k 0, eq_ix1 k⟩
  unfold biasRow
  rw [e]
  exact shapeCast_a_1a_apply _ _ (0 : Fin 1) _

private theorem bias_v1 : biasRow (V1 m ρ c main_v1) = m ((c.tc : Thread nD τ).loc main_arg4) := by
  have e : (V1 m ρ c main_v1 : S1x128.Idx → EReal)
      = shapeCast S1x128 (m ((c.tc : Thread nD τ).loc main_arg4)) shapeCasts_S128_S1x128 := by
    show StableHlo.after hostOps0 _ (Proc.devRef .tc main_v1) = _
    after_results
    rfl
  funext k
  obtain ⟨p, rfl⟩ : ∃ p : Fin 128, k = ix1 p := ⟨k 0, eq_ix1 k⟩
  unfold biasRow
  rw [e]
  exact shapeCast_a_1a_apply _ _ (0 : Fin 1) _

/-- The q table the gathers read: the projection of the launch arrays by the first weight and bias. -/
private theorem q_table :
    (W3 m ρ c (Proc.devRef .tc main_v2_0) : S50000x128.Idx → EReal)
      = Cert.Spec.proj (m ((c.tc : Thread nD τ).loc main_arg0)) (m ((c.tc : Thread nD τ).loc main_arg1))
          (m ((c.tc : Thread nD τ).loc main_arg2)) :=
  (w3_v2_0_back m ρ c).trans ((W2_arr m ρ c 5).trans ((final0_5 (V1 m ρ) c).trans (by
    rw [v1_arg0 m ρ c, v1_arg1 m ρ c, bias_v0 m ρ c])))

/-- The k table: the projection by the second weight and bias. -/
private theorem k_table :
    (W3 m ρ c (Proc.devRef .tc main_v2_1) : S50000x128.Idx → EReal)
      = Cert.Spec.proj (m ((c.tc : Thread nD τ).loc main_arg0)) (m ((c.tc : Thread nD τ).loc main_arg3))
          (m ((c.tc : Thread nD τ).loc main_arg4)) :=
  (w3_v2_1_back m ρ c).trans ((W2_arr m ρ c 6).trans ((final0_6 (V1 m ρ) c).trans (by
    rw [v1_arg0 m ρ c, v1_arg3 m ρ c, bias_v1 m ρ c])))

/-- The source index vector at edge e is the edge table's word (0, e). -/
private theorem src_apply (e : Fin 800000) :
    (W3 m ρ c (Proc.devRef .tc main_v4) : S800000.Idx → BitVec 32) (ix1 e)
      = Cert.Spec.srcW (m ((c.tc : Thread nD τ).loc main_arg5)) e := by
  have e4 : (W3 m ρ c (Proc.devRef .tc main_v4) : S800000.Idx → BitVec 32)
      = shapeCast S800000 (extractStridedSlice S1x800000 ![0, 0] (W2 m ρ c (Proc.devRef .tc main_arg5)) slices_S2x800000_S1x800000_0_0)
          shapeCasts_S1x800000_S800000 := by
    show StableHlo.after hostOps1 _ (Proc.devRef .tc main_v4) = _
    after_results
    rfl
  rw [e4, w2_arg5_back m ρ c]
  refine (shapeCast_1a_a_apply _ _ e).trans ?_
  exact slice2_axis0_eq 0 _ _ (0 : Fin 1) e

/-- The target index vector at edge e is the edge table's word (1, e). -/
private theorem dst_apply (e : Fin 800000) :
    (W3 m ρ c (Proc.devRef .tc main_v6) : S800000.Idx → BitVec 32) (ix1 e)
      = Cert.Spec.dstW (m ((c.tc : Thread nD τ).loc main_arg5)) e := by
  have e6 : (W3 m ρ c (Proc.devRef .tc main_v6) : S800000.Idx → BitVec 32)
      = shapeCast S800000 (extractStridedSlice S1x800000 ![1, 0] (W2 m ρ c (Proc.devRef .tc main_arg5)) slices_S2x800000_S1x800000_1_0)
          shapeCasts_S1x800000_S800000 := by
    show StableHlo.after hostOps1 _ (Proc.devRef .tc main_v6) = _
    after_results
    rfl
  rw [e6, w2_arg5_back m ρ c]
  refine (shapeCast_1a_a_apply _ _ e).trans ?_
  exact slice2_axis0_eq 1 _ _ (0 : Fin 1) e

end Tables

/-! ## The return side: scores and node sums over the second launch's exit -/

section Return
variable (c : Dev nD)

/-- The score vector is the second launch's score column read as a vector. -/
private theorem w9_v12 :
    W9 m ρ c (Proc.devRef .tc main_v12)
      = shapeCast S800000 (W8 m ρ c (Proc.devRef .tc main_v11)) shapeCasts_S800000x1_S800000 := by
  show StableHlo.after hostOps2 _ (Proc.devRef .tc main_v12) = _
  after_results
  rfl

/-- The score column is what the second launch leaves in its output array. -/
private theorem w8_v11 : W8 m ρ c (Proc.devRef .tc main_v11) = (dat1 (V7 m ρ) c).arrAt 4 cfg1.N :=
  W8_arr m ρ c 4

/-- The second index table reaches the last stretch as launched. -/
private theorem w8_arg6 : W8 m ρ c (Proc.devRef .tc main_arg6) = m ((c.tc : Thread nD τ).loc main_arg6) :=
  (show W9 m ρ c (Proc.devRef .tc main_arg6) = W8 m ρ c (Proc.devRef .tc main_arg6) by unwritten hostOps2).symm.trans
    (W9_main_arg6 m ρ c)

end Return

/-! ## The four gathered tables the second launch finds -/

section Gathered
variable (c : Dev nD)

private theorem v7_v7 :
    (V7 m ρ c main_v7 : S800000x128.Idx → EReal)
      = takeRows (W3 m ρ c (Proc.devRef .tc main_v2_0)) (W3 m ρ c (Proc.devRef .tc main_v4)) :=
  (w7_v7_back m ρ c).trans (w4_v7 m ρ c)

private theorem v7_v8 :
    (V7 m ρ c main_v8 : S800000x128.Idx → EReal)
      = takeRows (W3 m ρ c (Proc.devRef .tc main_v2_1)) (W3 m ρ c (Proc.devRef .tc main_v6)) :=
  (w7_v8_back m ρ c).trans ((w5_v8 m ρ c).trans (by rw [w4_v2_1_back m ρ c, w4_v6_back m ρ c]))

private theorem v7_v9 :
    (V7 m ρ c main_v9 : S800000x128.Idx → EReal)
      = takeRows (W3 m ρ c (Proc.devRef .tc main_v2_0)) (W3 m ρ c (Proc.devRef .tc main_v6)) :=
  (w7_v9_back m ρ c).trans ((w6_v9 m ρ c).trans (by rw [w5_v2_0_back m ρ c, w5_v6_back m ρ c]))

private theorem v7_v10 :
    (V7 m ρ c main_v10 : S800000x128.Idx → EReal)
      = takeRows (W3 m ρ c (Proc.devRef .tc main_v2_1)) (W3 m ρ c (Proc.devRef .tc main_v4)) :=
  (w7_v10 m ρ c).trans (by rw [w6_v2_1_back m ρ c, w6_v4_back m ρ c])

end Gathered

/-- The edge scores the program returns: with the edge table's words in range, the flat form over the launch arrays. -/
theorem kernel_diag (c : Dev nD) (hin : Cert.Spec.InRange (m ((c.tc : Thread nD τ).loc main_arg5))) :
    W9 m ρ c (Proc.devRef .tc main_v12)
      = Cert.Spec.diagFlat (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  obtain ⟨e, rfl⟩ : ∃ e : Fin 800000, i = ix1 e := ⟨i 0, eq_ix1 i⟩
  -- both index vectors hold words in range
  have hs : ∀ j : S800000.Idx, 0 ≤ ((W3 m ρ c (Proc.devRef .tc main_v4) : S800000.Idx → BitVec 32) j).toInt
      ∧ ((W3 m ρ c (Proc.devRef .tc main_v4) : S800000.Idx → BitVec 32) j).toInt < 50000 := fun j => by
    obtain ⟨p, rfl⟩ : ∃ p : Fin 800000, j = ix1 p := ⟨j 0, eq_ix1 j⟩
    rw [src_apply m ρ c p]; exact hin _
  have hd : ∀ j : S800000.Idx, 0 ≤ ((W3 m ρ c (Proc.devRef .tc main_v6) : S800000.Idx → BitVec 32) j).toInt
      ∧ ((W3 m ρ c (Proc.devRef .tc main_v6) : S800000.Idx → BitVec 32) j).toInt < 50000 := fun j => by
    obtain ⟨p, rfl⟩ : ∃ p : Fin 800000, j = ix1 p := ⟨j 0, eq_ix1 j⟩
    rw [dst_apply m ρ c p]; exact hin _
  -- the score of edge e is the second launch's, over the four gathered tables
  rw [w9_v12 m ρ c, w8_v11 m ρ c, final1_4 (V7 m ρ) c]
  refine (shapeCast_apply _ _ (ix1 e) (ix2 e (0 : Fin 1)) (by
    rw [Shape.rowMajor_val_two, Shape.rowMajor_val_one]; show e.val * 1 + 0 = e.val; omega)).trans ?_
  show Cert.Spec.scoreRow (V7 m ρ c main_v7) (V7 m ρ c main_v8) (V7 m ρ c main_v9) (V7 m ρ c main_v10) e
    = Cert.Spec.scoreFlat _ _ (Cert.Spec.rowOf (Cert.Spec.srcW _ e)) (Cert.Spec.rowOf (Cert.Spec.dstW _ e))
  rw [v7_v7 m ρ c, v7_v8 m ρ c, v7_v9 m ρ c, v7_v10 m ρ c]
  unfold Cert.Spec.scoreRow Cert.Spec.scoreFlat
  refine congrArg Ideal.exp (congrArg (fun s : EReal => s * Ideal.ofBits .f32 0x3D800000#32) (Finset.sum_congr rfl fun a _ => ?_))
  rw [takeRows_apply _ _ hs e a, takeRows_apply _ _ hs e a, takeRows_apply _ _ hd e a, takeRows_apply _ _ hd e a,
    src_apply m ρ c e, dst_apply m ρ c e, q_table m ρ c, k_table m ρ c]
  rfl

/-- The node sums the program returns: the shared last stretch applied to its own edge scores. -/
theorem kernel_nodes (c : Dev nD) :
    W9 m ρ c (Proc.devRef .tc main_v19)
      = Cert.Tail.tailK (W9 m ρ c (Proc.devRef .tc main_v12)) (m ((c.tc : Thread nD τ).loc main_arg6)) := by
  rw [w9_v12 m ρ c, ← w8_arg6 m ρ c]
  show StableHlo.after hostOps2 _ (Proc.devRef .tc main_v19) = _
  after_results
  rfl

end Cert.KernelIdeal.Hand

end
-- ==== Proof.RValue.lean ====
/- The reference, read as values: its edge scores are the score by heads over the projections, at the rows the edge
   table names (its gather clamps a start index; a negative word is wrapped first, which an in-range word never is); its node
   sums are the shared last stretch applied to them. -/
import proofs.«421865_j65403761983980_1_alg».proof.Proof.Gen.ReferenceIdeal.Read
import proofs.«421865_j65403761983980_1_alg».proof.Proof.Spec
import proofs.«421865_j65403761983980_1_alg».proof.Proof.Tail
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx

/- The dimension numbers shared by the four row gathers: operand [50000, 8, 16], one start word per edge, axis 0 collapsed. -/
local notation "gd" => gather_S50000x8x16_S800000x1_S800000x8x16_12_0_n_n_0_1_1816

/-- A row gather read at (e, h, j): the operand's row at edge e's start word, read signed and clamped into [0, 49999],
    at the same head and lane. -/
private theorem gather_rows {α : Type} (x : S50000x8x16.Idx → α) (idx : S800000x1.Idx → BitVec 32)
    (e : Fin 800000) (h : Fin 8) (j : Fin 16) :
    Host.gather gd x idx (ix3 e h j)
      = x (ix3 ⟨min (idx (ix2 e 0)).toInt.toNat 49999, by omega⟩ h j) := by
  unfold Host.gather
  congr 1
  funext a
  refine Fin.ext ?_
  show GatherDims.start gd (ix3 e h j) idx a + GatherDims.batchCoord gd (ix3 e h j) a
      + GatherDims.offCoord gd (ix3 e h j) a = _
  rw [GatherDims.batchCoord_eq_zero _ _ _ List.not_mem_nil, Nat.add_zero]
  match a with
  | ⟨0, _⟩ =>
    rw [GatherDims.offCoord_eq_zero _ _ _
      (fun hk => ((GatherDims.mem_sKept _ _).mp hk).1 (List.mem_singleton.mpr rfl)), Nat.add_zero]
    unfold GatherDims.start
    rw [dif_pos (show (⟨0, by decide⟩ : Fin S50000x8x16.rank) ∈ GatherDims.startIndexMap gd from List.mem_singleton.mpr rfl)]
    have hsi : GatherDims.siIdx gd (ix3 e h j) ⟨List.idxOf (⟨0, by decide⟩ : Fin S50000x8x16.rank) (GatherDims.startIndexMap gd),
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have hs : GatherDims.start gd (ix3 e h j) idx (⟨1, by decide⟩ : Fin S50000x8x16.rank) = 0 := by
      unfold GatherDims.start
      rw [dif_neg (show ¬ (⟨1, by decide⟩ : Fin S50000x8x16.rank) ∈ GatherDims.startIndexMap gd by decide)]
    rw [hs, Nat.zero_add]
    unfold GatherDims.offCoord
    rw [dif_pos (show (⟨1, by decide⟩ : Fin S50000x8x16.rank) ∈ GatherDims.sKept gd by decide)]
    rfl
  | ⟨2, _⟩ =>
    have hs : GatherDims.start gd (ix3 e h j) idx (⟨2, by decide⟩ : Fin S50000x8x16.rank) = 0 := by
      unfold GatherDims.start
      rw [dif_neg (show ¬ (⟨2, by decide⟩ : Fin S50000x8x16.rank) ∈ GatherDims.startIndexMap gd by decide)]
    rw [hs, Nat.zero_add]
    unfold GatherDims.offCoord
    rw [dif_pos (show (⟨2, by decide⟩ : Fin S50000x8x16.rank) ∈ GatherDims.sKept gd by decide)]
    rfl

/-- The projected rows by heads: entry (n, h, j) of the reshaped sum of the product and the broadcast bias is the
    linear map's entry (n, 16h + j). -/
private theorem q_heads (x0 : S50000x256.Idx → EReal) (x1 : S128x256.Idx → EReal) (x2 : S128.Idx → EReal)
    (n : Fin 50000) (h : Fin 8) (j : Fin 16) :
    val_main_v5 (F := Ideal) x0 x1 x2 (ix3 n h j) = Cert.Spec.projAt x0 x1 x2 n (Cert.Spec.headCoord h j) := by
  have e5 : idx_main_v5 (ix3 n h j) = ix2 n (Cert.Spec.headCoord h j) := funext fun a => Fin.ext (by
    match a with
    | ⟨0, _⟩ => show ((n.val * 8 + h.val) * 16 + j.val) / 128 = n.val; omega
    | ⟨1, _⟩ => show ((n.val * 8 + h.val) * 16 + j.val) % 128 = 16 * h.val + j.val; omega)
  have el : ∀ k : Fin 256, lidx_main_v1 (ix2 n (Cert.Spec.headCoord h j)) k = ix2 n k := fun k =>
    funext fun a => Fin.ext (by match a with | ⟨0, _⟩ => rfl | ⟨1, _⟩ => rfl)
  have er : ∀ k : Fin 256, idx_main_v0 (ridx_main_v1 (ix2 n (Cert.Spec.headCoord h j)) k) = ix2 (Cert.Spec.headCoord h j) k :=
    fun k => funext fun a => Fin.ext (by match a with | ⟨0, _⟩ => rfl | ⟨1, _⟩ => rfl)
  have eb : idx_main_v2 (idx_main_v3 (ix2 n (Cert.Spec.headCoord h j))) = ix1 (Cert.Spec.headCoord h j) :=
    funext fun a => Fin.ext (by match a with | ⟨0, _⟩ => rfl)
  rw [val_main_v5_apply, e5, val_main_v4_apply, val_main_v1_apply, val_main_v3_apply, val_main_v2_apply, eb]
  simp only [val_main_v0_apply, el, er, Ideal.addf_def]
  rfl

/-- The same for the second linear map. -/
private theorem k_heads (x0 : S50000x256.Idx → EReal) (x3 : S128x256.Idx → EReal) (x4 : S128.Idx → EReal)
    (n : Fin 50000) (h : Fin 8) (j : Fin 16) :
    val_main_v11 (F := Ideal) x0 x3 x4 (ix3 n h j) = Cert.Spec.projAt x0 x3 x4 n (Cert.Spec.headCoord h j) := by
  have e5 : idx_main_v11 (ix3 n h j) = ix2 n (Cert.Spec.headCoord h j) := funext fun a => Fin.ext (by
    match a with
    | ⟨0, _⟩ => show ((n.val * 8 + h.val) * 16 + j.val) / 128 = n.val; omega
    | ⟨1, _⟩ => show ((n.val * 8 + h.val) * 16 + j.val) % 128 = 16 * h.val + j.val; omega)
  have el : ∀ k : Fin 256, lidx_main_v7 (ix2 n (Cert.Spec.headCoord h j)) k = ix2 n k := fun k =>
    funext fun a => Fin.ext (by match a with | ⟨0, _⟩ => rfl | ⟨1, _⟩ => rfl)
  have er : ∀ k : Fin 256, idx_main_v6 (ridx_main_v7 (ix2 n (Cert.Spec.headCoord h j)) k) = ix2 (Cert.Spec.headCoord h j) k :=
    fun k => funext fun a => Fin.ext (by match a with | ⟨0, _⟩ => rfl | ⟨1, _⟩ => rfl)
  have eb : idx_main_v8 (idx_main_v9 (ix2 n (Cert.Spec.headCoord h j))) = ix1 (Cert.Spec.headCoord h j) :=
    funext fun a => Fin.ext (by match a with | ⟨0, _⟩ => rfl)
  rw [val_main_v11_apply, e5, val_main_v10_apply, val_main_v7_apply, val_main_v9_apply, val_main_v8_apply, eb]
  simp only [val_main_v6_apply, el, er, Ideal.addf_def]
  rfl

/-- Row 0 of the edge table, flattened: edge e's source word. -/
private theorem src_row (x5 : S2x800000.Idx → BitVec 32) (e : Fin 800000) :
    val_main_v13 (F := Ideal) x5 (ix1 e) = Cert.Spec.srcW x5 e := by
  rw [val_main_v13_apply, val_main_v12_apply]
  exact congrArg x5 (funext fun a => Fin.ext (by
    match a with
    | ⟨0, _⟩ => rfl
    | ⟨1, _⟩ => exact Nat.mod_eq_of_lt e.isLt))

/-- Row 1 of the edge table, flattened: edge e's target word. -/
private theorem dst_row (x5 : S2x800000.Idx → BitVec 32) (e : Fin 800000) :
    val_main_v15 (F := Ideal) x5 (ix1 e) = Cert.Spec.dstW x5 e := by
  rw [val_main_v15_apply, val_main_v14_apply]
  exact congrArg x5 (funext fun a => Fin.ext (by
    match a with
    | ⟨0, _⟩ => rfl
    | ⟨1, _⟩ => exact Nat.mod_eq_of_lt e.isLt))

/-- The wrap of negative words keeps a word that is not negative: the signed comparison with 0 fails. -/
private theorem wrap_keep (w a : BitVec 32) (hw : 0 ≤ w.toInt) :
    Scalar.select (IntOp.cmpi .slt w 0#32) a w = w := by
  have hc : IntOp.cmpi .slt w 0#32 = 0#1 := by
    have hs : w.slt 0#32 = false := by
      simp only [BitVec.slt, BitVec.toInt_zero]
      exact decide_eq_false (by omega)
    show BitVec.ofBool (w.slt 0#32) = 0#1
    rw [hs]; rfl
  rw [hc, select_zero]

/-- The four start-index columns: under the range hypothesis each is the edge's own word. -/
private theorem start_v21 (x5 : S2x800000.Idx → BitVec 32) (hin : Cert.Spec.InRange x5) (e : Fin 800000) :
    val_main_v21 (F := Ideal) x5 (ix2 e 0) = Cert.Spec.srcW x5 e := by
  have e21 : idx_main_v21 (ix2 e (0 : Fin 1)) = ix1 e := funext fun a => Fin.ext (by match a with | ⟨0, _⟩ => rfl)
  rw [val_main_v21_apply, e21, val_main_v20_apply, val_main_v17_apply, val_main_v16_apply, val_main_c_apply, src_row]
  exact wrap_keep _ _ (hin _).1

private theorem start_v28 (x5 : S2x800000.Idx → BitVec 32) (hin : Cert.Spec.InRange x5) (e : Fin 800000) :
    val_main_v28 (F := Ideal) x5 (ix2 e 0) = Cert.Spec.dstW x5 e := by
  have e28 : idx_main_v28 (ix2 e (0 : Fin 1)) = ix1 e := funext fun a => Fin.ext (by match a with | ⟨0, _⟩ => rfl)
  rw [val_main_v28_apply, e28, val_main_v27_apply, val_main_v24_apply, val_main_v23_apply, val_main_c_1_apply, dst_row]
  exact wrap_keep _ _ (hin _).1

private theorem start_v35 (x5 : S2x800000.Idx → BitVec 32) (hin : Cert.Spec.InRange x5) (e : Fin 800000) :
    val_main_v35 (F := Ideal) x5 (ix2 e 0) = Cert.Spec.dstW x5 e := by
  have e35 : idx_main_v35 (ix2 e (0 : Fin 1)) = ix1 e := funext fun a => Fin.ext (by match a with | ⟨0, _⟩ => rfl)
  rw [val_main_v35_apply, e35, val_main_v34_apply, val_main_v31_apply, val_main_v30_apply, val_main_c_3_apply, dst_row]
  exact wrap_keep _ _ (hin _).1

private theorem start_v42 (x5 : S2x800000.Idx → BitVec 32) (hin : Cert.Spec.InRange x5) (e : Fin 800000) :
    val_main_v42 (F := Ideal) x5 (ix2 e 0) = Cert.Spec.srcW x5 e := by
  have e42 : idx_main_v42 (ix2 e (0 : Fin 1)) = ix1 e := funext fun a => Fin.ext (by match a with | ⟨0, _⟩ => rfl)
  rw [val_main_v42_apply, e42, val_main_v41_apply, val_main_v38_apply, val_main_v37_apply, val_main_c_5_apply, src_row]
  exact wrap_keep _ _ (hin _).1

/-- The four gathered tables at (e, h, j): the projections' entries at the rows edge e's words name. -/
private theorem v22_at (x0 : S50000x256.Idx → EReal) (x1 : S128x256.Idx → EReal) (x2 : S128.Idx → EReal)
    (x5 : S2x800000.Idx → BitVec 32) (hin : Cert.Spec.InRange x5) (e : Fin 800000) (h : Fin 8) (j : Fin 16) :
    val_main_v22 (F := Ideal) x0 x1 x2 x5 (ix3 e h j)
      = Cert.Spec.proj x0 x1 x2 (ix2 (Cert.Spec.rowOf (Cert.Spec.srcW x5 e)) (Cert.Spec.headCoord h j)) := by
  unfold val_main_v22
  refine (gather_rows _ _ e h j).trans ?_
  show val_main_v5 (F := Ideal) x0 x1 x2 (ix3 (Cert.Spec.rowOf (val_main_v21 (F := Ideal) x5 (ix2 e 0))) h j) = _
  rw [start_v21 x5 hin e, Cert.Spec.proj_apply]
  exact q_heads x0 x1 x2 _ h j

private theorem v29_at (x0 : S50000x256.Idx → EReal) (x3 : S128x256.Idx → EReal) (x4 : S128.Idx → EReal)
    (x5 : S2x800000.Idx → BitVec 32) (hin : Cert.Spec.InRange x5) (e : Fin 800000) (h : Fin 8) (j : Fin 16) :
    val_main_v29 (F := Ideal) x0 x3 x4 x5 (ix3 e h j)
      = Cert.Spec.proj x0 x3 x4 (ix2 (Cert.Spec.rowOf (Cert.Spec.dstW x5 e)) (Cert.Spec.headCoord h j)) := by
  unfold val_main_v29
  refine (gather_rows _ _ e h j).trans ?_
  show val_main_v11 (F := Ideal) x0 x3 x4 (ix3 (Cert.Spec.rowOf (val_main_v28 (F := Ideal) x5 (ix2 e 0))) h j) = _
  rw [start_v28 x5 hin e, Cert.Spec.proj_apply]
  exact k_heads x0 x3 x4 _ h j

private theorem v36_at (x0 : S50000x256.Idx → EReal) (x1 : S128x256.Idx → EReal) (x2 : S128.Idx → EReal)
    (x5 : S2x800000.Idx → BitVec 32) (hin : Cert.Spec.InRange x5) (e : Fin 800000) (h : Fin 8) (j : Fin 16) :
    val_main_v36 (F := Ideal) x0 x1 x2 x5 (ix3 e h j)
      = Cert.Spec.proj x0 x1 x2 (ix2 (Cert.Spec.rowOf (Cert.Spec.dstW x5 e)) (Cert.Spec.headCoord h j)) := by
  unfold val_main_v36
  refine (gather_rows _ _ e h j).trans ?_
  show val_main_v5 (F := Ideal) x0 x1 x2 (ix3 (Cert.Spec.rowOf (val_main_v35 (F := Ideal) x5 (ix2 e 0))) h j) = _
  rw [start_v35 x5 hin e, Cert.Spec.proj_apply]
  exact q_heads x0 x1 x2 _ h j

private theorem v43_at (x0 : S50000x256.Idx → EReal) (x3 : S128x256.Idx → EReal) (x4 : S128.Idx → EReal)
    (x5 : S2x800000.Idx → BitVec 32) (hin : Cert.Spec.InRange x5) (e : Fin 800000) (h : Fin 8) (j : Fin 16) :
    val_main_v43 (F := Ideal) x0 x3 x4 x5 (ix3 e h j)
      = Cert.Spec.proj x0 x3 x4 (ix2 (Cert.Spec.rowOf (Cert.Spec.srcW x5 e)) (Cert.Spec.headCoord h j)) := by
  unfold val_main_v43
  refine (gather_rows _ _ e h j).trans ?_
  show val_main_v11 (F := Ideal) x0 x3 x4 (ix3 (Cert.Spec.rowOf (val_main_v42 (F := Ideal) x5 (ix2 e 0))) h j) = _
  rw [start_v42 x5 hin e, Cert.Spec.proj_apply]
  exact k_heads x0 x3 x4 _ h j

/-- The sum of the two products at (e, h, j) is edge e's symmetric term at coordinate 16h + j. -/
private theorem pair_at (x0 : S50000x256.Idx → EReal) (x1 : S128x256.Idx → EReal) (x2 : S128.Idx → EReal)
    (x3 : S128x256.Idx → EReal) (x4 : S128.Idx → EReal) (x5 : S2x800000.Idx → BitVec 32) (hin : Cert.Spec.InRange x5)
    (e : Fin 800000) (h : Fin 8) (j : Fin 16) :
    val_main_v46 (F := Ideal) x0 x1 x2 x3 x4 x5 (ix3 e h j)
      = Cert.Spec.pairAt (Cert.Spec.proj x0 x1 x2) (Cert.Spec.proj x0 x3 x4) (Cert.Spec.rowOf (Cert.Spec.srcW x5 e))
          (Cert.Spec.rowOf (Cert.Spec.dstW x5 e)) (Cert.Spec.headCoord h j) := by
  rw [val_main_v46_apply, val_main_v44_apply, val_main_v45_apply, v22_at x0 x1 x2 x5 hin, v29_at x0 x3 x4 x5 hin,
    v36_at x0 x1 x2 x5 hin, v43_at x0 x3 x4 x5 hin]
  rfl

/-- One head of one edge: half the sum from zero of the edge's sixteen terms at the head's coordinates. -/
private theorem head_at (x0 : S50000x256.Idx → EReal) (x1 : S128x256.Idx → EReal) (x2 : S128.Idx → EReal)
    (x3 : S128x256.Idx → EReal) (x4 : S128.Idx → EReal) (x5 : S2x800000.Idx → BitVec 32) (hin : Cert.Spec.InRange x5)
    (e : Fin 800000) (k : Fin 8) :
    val_main_v49 (F := Ideal) x0 x1 x2 x3 x4 x5 (ix2 e k)
      = Ideal.ofBits .f32 0x3F000000#32 * (Ideal.ofBits .f32 0x00000000#32 + ∑ l : Fin 16,
          Cert.Spec.pairAt (Cert.Spec.proj x0 x1 x2) (Cert.Spec.proj x0 x3 x4) (Cert.Spec.rowOf (Cert.Spec.srcW x5 e))
            (Cert.Spec.rowOf (Cert.Spec.dstW x5 e)) (Cert.Spec.headCoord k l)) := by
  have hs : ∑ l : Fin 16, val_main_v46 (F := Ideal) x0 x1 x2 x3 x4 x5 (idx_main_v47 (ix2 e k) l)
      = ∑ l : Fin 16, Cert.Spec.pairAt (Cert.Spec.proj x0 x1 x2) (Cert.Spec.proj x0 x3 x4)
          (Cert.Spec.rowOf (Cert.Spec.srcW x5 e)) (Cert.Spec.rowOf (Cert.Spec.dstW x5 e)) (Cert.Spec.headCoord k l) :=
    Finset.sum_congr rfl fun l _ => by
      have e47 : idx_main_v47 (ix2 e k) l = ix3 e k l :=
        funext fun a => Fin.ext (by match a with | ⟨0, _⟩ => rfl | ⟨1, _⟩ => rfl | ⟨2, _⟩ => rfl)
      rw [e47]
      exact pair_at x0 x1 x2 x3 x4 x5 hin e k l
  rw [val_main_v49_apply, val_main_v48_apply, val_main_cst_7_apply, val_main_v47_apply, val_main_cst_apply, hs]
  rfl

/-- The reference's edge scores: with the edge table's words in range, the score by heads. -/
theorem ref_diag (x0 : S50000x256.Idx → EReal) (x1 : S128x256.Idx → EReal) (x2 : S128.Idx → EReal) (x3 : S128x256.Idx → EReal)
    (x4 : S128.Idx → EReal) (x5 : S2x800000.Idx → BitVec 32) (hin : Cert.Spec.InRange x5) :
    val_main_v53 (F := Ideal) x0 x1 x2 x3 x4 x5 = Cert.Spec.diagHeads x0 x1 x2 x3 x4 x5 := by
  funext i
  obtain ⟨e, rfl⟩ : ∃ e : Fin 800000, i = ix1 e := ⟨i 0, eq_ix1 i⟩
  have e50 : ∀ k : Fin 8, idx_main_v50 (ix1 e) k = ix2 e k := fun k =>
    funext fun a => Fin.ext (by match a with | ⟨0, _⟩ => rfl | ⟨1, _⟩ => rfl)
  rw [val_main_v53_apply, val_main_v52_apply, val_main_v51_apply, val_main_cst_9_apply, val_main_v50_apply,
    val_main_cst_8_apply]
  have hs : ∑ k : Fin 8, val_main_v49 (F := Ideal) x0 x1 x2 x3 x4 x5 (idx_main_v50 (ix1 e) k)
      = ∑ k : Fin 8, Ideal.ofBits .f32 0x3F000000#32 * (Ideal.ofBits .f32 0x00000000#32 + ∑ l : Fin 16,
          Cert.Spec.pairAt (Cert.Spec.proj x0 x1 x2) (Cert.Spec.proj x0 x3 x4) (Cert.Spec.rowOf (Cert.Spec.srcW x5 e))
            (Cert.Spec.rowOf (Cert.Spec.dstW x5 e)) (Cert.Spec.headCoord k l)) :=
    Finset.sum_congr rfl fun k _ => by
      rw [e50 k]
      exact head_at x0 x1 x2 x3 x4 x5 hin e k
  rw [hs]
  unfold Cert.Spec.diagHeads Cert.Spec.scoreHeads
  rfl

/-- The reference's node sums: the shared last stretch applied to its edge scores. -/
theorem ref_nodes (x0 : S50000x256.Idx → EReal) (x1 : S128x256.Idx → EReal) (x2 : S128.Idx → EReal) (x3 : S128x256.Idx → EReal)
    (x4 : S128.Idx → EReal) (x5 : S2x800000.Idx → BitVec 32) (x6 : S2x1600000.Idx → BitVec 32) :
    val_main_v60 (F := Ideal) x0 x1 x2 x3 x4 x5 x6 = Cert.Tail.tailR (val_main_v53 (F := Ideal) x0 x1 x2 x3 x4 x5) x6 := by
  unfold val_main_v60 val_main_v55 val_main_v54 val_main_v58 val_main_v59 val_main_v57 val_main_v56 val_main_cst_10 Cert.Tail.tailR
  rfl

end Cert.ReferenceIdeal.Hand

end
-- ==== Proof.PreFacts.lean ====
/- What the precondition says of the arrays: every float entry is a real number (its absolute value is below +∞), and
   every word of the edge table is a node number, 0 ≤ word < 50000 read signed. -/
import proofs.«421865_j65403761983980_1_alg».proof.Pre_finite_inputs
import proofs.«421865_j65403761983980_1_alg».proof.Proof.Gen.Pre_finite_inputs
import proofs.«421865_j65403761983980_1_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

namespace Cert.PreHand

open Cert.Pre_finite_inputs
open Idealize.ShloMosaic Idealize.ShloMosaic.ValueIdx

/-- The shape with no axes has exactly one index. -/
private instance subsingleton_scalar_idx : Subsingleton S_.Idx := ⟨fun a b => funext fun d => d.elim0⟩

/-- The word 0x7F800000 (exponent all ones, fraction zero, sign clear) denotes +∞. -/
private theorem inf_word : Ideal.ofBits .f32 0x7F800000#32 = (⊤ : EReal) := by
  simp [Ideal.ofBits, Ideal.ieee]

/-- An extended real whose absolute value max x (−x) lies strictly below +∞ is a real number: at −∞ and at +∞ the
    absolute value is +∞ itself. -/
private theorem real_of_abs_lt_top (x : EReal)
    (h : Ideal.cmp .olt (max x (-x)) (⊤ : EReal) = 1#1) : ∃ r : ℝ, x = (r : EReal) := by
  induction x using EReal.rec with
  | bot => exfalso; revert h; simp [Ideal.cmp]
  | top => exfalso; revert h; simp [Ideal.cmp]
  | coe r => exact ⟨r, rfl⟩

/-- One float array, any shape: if the conjunction over all its entries of |x| < +∞ is true, every entry is real. -/
private theorem isReal_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf (F := Ideal) x)
        (broadcastInDim s ![] hb (constant (F := Ideal) S_ .f32 0x7F800000#32))) (constantI S_ 1 1#1) hr h0 ix0 = 1#1) :
    Cert.Spec.IsReal x := by
  intro i
  have e := Host.reduce_andi_all _ _ hr h0 ix0 h i
  change Ideal.cmp .olt (max (x i) (-(x i))) (Ideal.ofBits .f32 0x7F800000#32) = 1#1 at e
  rw [inf_word] at e
  exact real_of_abs_lt_top (x i) e

/-- The edge table: if the conjunction over all its words of (word ≥ 0) ∧ (word < 50000), both read signed, is true,
    every word is in range. -/
private theorem inRange_of_all (E : IVec S2x800000 32)
    (hb : S_.BroadcastsInDim S2x800000 (![] : Fin 0 → Fin S2x800000.rank)) {axes : List (Fin S2x800000.rank)}
    (hr : S2x800000.ReducesTo axes S_) (h0 : 0 < S_.numel)
    (h : Host.reduce IntOp.andi
        (andi (cmpi .sge E (broadcastInDim S2x800000 ![] hb (constantI S_ 32 0#32)))
          (cmpi .slt E (broadcastInDim S2x800000 ![] hb (constantI S_ 32 50000#32))))
        (constantI S_ 1 1#1) hr h0 ix0 = 1#1) :
    Cert.Spec.InRange E := by
  intro j
  have e := Host.reduce_andi_all _ _ hr h0 ix0 h j
  change IntOp.andi (IntOp.cmpi .sge (E j) 0#32) (IntOp.cmpi .slt (E j) 50000#32) = 1#1 at e
  obtain ⟨hge, hlt⟩ := IntOp.andi_eq_one.1 e
  have h1 : (0#32 : BitVec 32).toInt ≤ (E j).toInt := IntOp.cmpi_sge.1 hge
  have h2 : (E j).toInt < (50000#32 : BitVec 32).toInt := IntOp.cmpi_slt.1 hlt
  have z0 : (0#32 : BitVec 32).toInt = 0 := by decide
  have z1 : (50000#32 : BitVec 32).toInt = 50000 := by decide
  rw [z0] at h1
  rw [z1] at h2
  exact ⟨h1, h2⟩

/-- The precondition all ones: the five float arrays are real and the edge table's words are in range. -/
theorem pre_facts [Cert.Pre_finite_inputs.Facts] (x0 : S50000x256.Idx → EReal) (x1 : S128x256.Idx → EReal) (x2 : S128.Idx → EReal)
    (x3 : S128x256.Idx → EReal) (x4 : S128.Idx → EReal) (x5 : S2x800000.Idx → BitVec 32) (x6 : S2x1600000.Idx → BitVec 32)
    (h : Cert.Pre_finite_inputs.fn (F := Ideal) x0 x1 x2 x3 x4 x5 x6 = fun _ => 1#1) :
    Cert.Spec.IsReal x0 ∧ Cert.Spec.IsReal x1 ∧ Cert.Spec.IsReal x2 ∧ Cert.Spec.IsReal x3 ∧ Cert.Spec.IsReal x4
      ∧ Cert.Spec.InRange x5 := by
  have h0 := congrFun h ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ _ _ e0, isReal_of_all x1 _ _ _ e1, isReal_of_all x2 _ _ _ e2, isReal_of_all x3 _ _ _ e3,
    isReal_of_all x4 _ _ _ e4, inRange_of_all x5 _ _ _ e5⟩

end Cert.PreHand

end
-- ==== Proof.lean ====
/- The proof of the claim: a graph attention layer's per-edge scores and their per-node sums, computed by two tiled
   launches around plain gathers and a scatter-add, against a plain reference.

   Both programs project the node features, q = x·Wqᵀ + bq and k = x·Wkᵀ + bk; for every edge (s, t) they form
   q[s]·k[t] + q[t]·k[s] coordinate by coordinate and take exp of a scaled sum of the 128 coordinates; each score is
   then added, twice in a row, into the node slots a second index table names.  The tiled program sums the 128
   coordinates at once and scales by 1/16; the reference sums 8 heads of 16, halves each, adds them and divides by 8.
   With every float entry a real number the two sums agree (distributivity, which fails at an infinity, is where
   finiteness is used).  The tiled program reads a row through a masked take that yields a junk row for a word outside
   [0, 50000), where the reference's gather clamps: the precondition keeps the edge table's words in range, and there
   both read the same row.  The last stretch is the same function of the scores in both programs.

   The three frames are the generated ones (the reference's is its run with the results dropped); nothing was rewritten
   by the idealization, so that conjunct is trivial. -/
import proofs.«421865_j65403761983980_1_alg».proof.Defs
import proofs.«421865_j65403761983980_1_alg».proof.Proof.Gen.Kernel
import proofs.«421865_j65403761983980_1_alg».proof.Proof.Gen.Kernel.Skeleton
import proofs.«421865_j65403761983980_1_alg».proof.Proof.Gen.Kernel.Launch
import proofs.«421865_j65403761983980_1_alg».proof.Proof.Gen.Kernel.Points
import proofs.«421865_j65403761983980_1_alg».proof.Proof.Gen.Kernel.Frame
import proofs.«421865_j65403761983980_1_alg».proof.Proof.Gen.KernelIdeal
import proofs.«421865_j65403761983980_1_alg».proof.Proof.Gen.KernelIdeal.Skeleton
import proofs.«421865_j65403761983980_1_alg».proof.Proof.Gen.KernelIdeal.Launch
import proofs.«421865_j65403761983980_1_alg».proof.Proof.Gen.KernelIdeal.Points
import proofs.«421865_j65403761983980_1_alg».proof.Proof.Gen.KernelIdeal.Frame
import proofs.«421865_j65403761983980_1_alg».proof.Proof.Gen.ReferenceIdeal
import proofs.«421865_j65403761983980_1_alg».proof.Proof.Gen.Pre_finite_inputs
import proofs.«421865_j65403761983980_1_alg».proof.Proof.Gen.ReferenceIdeal.Run
import proofs.«421865_j65403761983980_1_alg».proof.Proof.Gen.ReferenceIdeal.Read
import proofs.«421865_j65403761983980_1_alg».proof.Proof.Spec
import proofs.«421865_j65403761983980_1_alg».proof.Proof.Tail
import proofs.«421865_j65403761983980_1_alg».proof.Proof.KRun
import proofs.«421865_j65403761983980_1_alg».proof.Proof.KHost
import proofs.«421865_j65403761983980_1_alg».proof.Proof.RValue
import proofs.«421865_j65403761983980_1_alg».proof.Proof.PreFacts
import Idealize.ShloMosaic.Adequacy
import Idealize.ShloMosaic.Init

noncomputable section

namespace Cert.Proof

open Idealize.ShloMosaic Idealize.SL.Sem

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the same node sums and the same edge scores. -/
theorem algebraic : Cert.algebraic_KernelIdeal_ReferenceIdeal := by
  intro m ρ m' ρ' hpre hagree
  have hf := fun c => Cert.PreHand.pre_facts _ _ _ _ _ _ _ (hpre c)
  refine ⟨fun c => Cert.Tail.tailK (Cert.Spec.diagFlat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)),
    fun c => Cert.Spec.diagFlat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Named.run_named (F := Ideal) m ρ)
    obtain ⟨h19, h12, hargs⟩ := h c
    have hd := Cert.KernelIdeal.Hand.kernel_diag m ρ c (hf c).2.2.2.2.2
    exact ⟨h19.trans ((Cert.KernelIdeal.Hand.kernel_nodes m ρ c).trans (by rw [hd])), h12.trans hd, hargs⟩
  · refine (θ_run Cert.ReferenceIdeal.defs _ _).mono (fun r h c => ?_) (Cert.ReferenceIdeal.Value.run (F := Ideal) m' ρ')
    obtain ⟨h60, h53, hargs⟩ := h c
    obtain ⟨a0, a1, a2, a3, a4, a5, a6⟩ := hagree c
    obtain ⟨r0, r1, r2, r3, r4, hin⟩ := hf c
    have hd : Cert.ReferenceIdeal.Read.val_main_v53 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        = Cert.Spec.diagFlat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
      rw [a0, a1, a2, a3, a4, a5, Cert.ReferenceIdeal.Hand.ref_diag _ _ _ _ _ _ hin,
        Cert.Spec.diagHeads_eq_diagFlat r0 r1 r2 r3 r4]
    refine ⟨h60.trans ?_, h53.trans ?_, hargs⟩
    · rw [Cert.ReferenceIdeal.Read.val_main_v60_eq, Cert.ReferenceIdeal.Hand.ref_nodes, hd, Cert.Tail.tailR_eq_tailK, a6]
    · rw [Cert.ReferenceIdeal.Read.val_main_v53_eq, hd]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
